-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64 : Shape := ⟨3, ![32, 512, 64]⟩
abbrev S128x64x64 : Shape := ⟨3, ![128, 64, 64]⟩
abbrev S_ : Shape := ⟨0, ![]⟩

class Facts : Prop where
  bcast_S_S32x512x64 : S_.BroadcastsInDim S32x512x64 (![] : Fin 0 → Fin S32x512x64.rank)
  reducesTo_S32x512x64_S_d0_1_2 : S32x512x64.ReducesTo [0, 1, 2] S_
  h_S_ : 0 < S_.numel
  bcast_S_S128x64x64 : S_.BroadcastsInDim S128x64x64 (![] : Fin 0 → Fin S128x64x64.rank)
  reducesTo_S128x64x64_S_d0_1_2 : S128x64x64.ReducesTo [0, 1, 2] S_

variable [Facts]

def fn {F : FTy → Type} [FloatOps F] (main_arg0 : FVec F S32x512x64 .f32) (main_arg1 : FVec F S128x64x64 .f32) : IVec S_ 1 :=
  let main_v0 : FVec F S32x512x64 .f32 := Host.absf main_arg0
  let main_cst : FVec F S_ .f32 := constant S_ .f32 0x7F800000#32
  let main_v1 : FVec F S32x512x64 .f32 := broadcastInDim S32x512x64 ![] bcast_S_S32x512x64 main_cst
  let main_v2 : IVec S32x512x64 1 := cmpf .olt main_v0 main_v1
  let main_c : IVec S_ 1 := constantI S_ 1 1#1
  let main_v3 : IVec S_ 1 := (fun x v => Host.reduce IntOp.andi x v reducesTo_S32x512x64_S_d0_1_2 h_S_) main_v2 main_c
  let main_v4 : FVec F S128x64x64 .f32 := Host.absf main_arg1
  let main_cst_0 : FVec F S_ .f32 := constant S_ .f32 0x7F800000#32
  let main_v5 : FVec F S128x64x64 .f32 := broadcastInDim S128x64x64 ![] bcast_S_S128x64x64 main_cst_0
  let main_v6 : IVec S128x64x64 1 := cmpf .olt main_v4 main_v5
  let main_c_1 : IVec S_ 1 := constantI S_ 1 1#1
  let main_v7 : IVec S_ 1 := (fun x v => Host.reduce IntOp.andi x v reducesTo_S128x64x64_S_d0_1_2 h_S_) main_v6 main_c_1
  let main_v8 : IVec S_ 1 := andi main_v3 main_v7
  main_v8
-- ==== Kernel.lean ====
abbrev S32x512x64 : Shape := ⟨3, ![32, 512, 64]⟩
abbrev S128x64x64 : Shape := ⟨3, ![128, 64, 64]⟩
abbrev S32x128x64 : Shape := ⟨3, ![32, 128, 64]⟩
abbrev S1x512x64 : Shape := ⟨3, ![1, 512, 64]⟩
abbrev S64x64x64 : Shape := ⟨3, ![64, 64, 64]⟩
abbrev S1x64x64 : Shape := ⟨3, ![1, 64, 64]⟩
abbrev S512x64 : Shape := ⟨2, ![512, 64]⟩
abbrev S4096x64 : Shape := ⟨2, ![4096, 64]⟩
abbrev S4096x512 : Shape := ⟨2, ![4096, 512]⟩
abbrev S64x64x512 : Shape := ⟨3, ![64, 64, 512]⟩
abbrev S64x64 : Shape := ⟨2, ![64, 64]⟩
abbrev S64x64x1 : Shape := ⟨3, ![64, 64, 1]⟩
abbrev S64x1 : Shape := ⟨2, ![64, 1]⟩
abbrev S64x1x1 : Shape := ⟨3, ![64, 1, 1]⟩
abbrev S64x512 : Shape := ⟨2, ![64, 512]⟩
abbrev S64x1x512 : Shape := ⟨3, ![64, 1, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x512x64, .f32⟩
  | .hbm, ⟨1, _⟩ => ⟨S128x64x64, .f32⟩
  | .hbm, ⟨2, _⟩ => ⟨S32x128x64, .f32⟩
  | .local _ .vmem, ⟨0, _⟩ => ⟨S1x512x64, .f32⟩
  | .local _ .vmem, ⟨1, _⟩ => ⟨S1x512x64, .f32⟩
  | .local _ .vmem, ⟨2, _⟩ => ⟨S64x64x64, .f32⟩
  | .local _ .vmem, ⟨3, _⟩ => ⟨S64x64x64, .f32⟩
  | .local _ .vmem, ⟨4, _⟩ => ⟨S1x64x64, .f32⟩
  | .local _ .vmem, ⟨5, _⟩ => ⟨S1x64x64, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x64x64_S64x64x64_0_0_0 : ∀ a, (![0, 0, 0] : Fin 3 → Nat) a + S64x64x64.size a ≤ S64x64x64.size a
  h_S64x64x64 : 0 < S64x64x64.numel
  shapeCasts_S64x64x64_S4096x64 : S64x64x64.ShapeCasts S4096x64
  bitsLt_bf16_f32 : FTy.bits .bf16 < FTy.bits .f32
  shapeCasts_S4096x512_S64x64x512 : S4096x512.ShapeCasts S64x64x512
  reduces_S64x64x512_S64x64 : S64x64x512.Reduces [2] S64x64
  shapeCasts_S64x64_S64x64x1 : S64x64.ShapeCasts S64x64x1
  reduces_S64x64x1_S64x1 : S64x64x1.Reduces [1] S64x1
  shapeCasts_S64x1_S64x1x1 : S64x1.ShapeCasts S64x1x1
  broadcasts_S64x1x1_S64x64x1 : S64x1x1.Broadcasts S64x64x1
  broadcasts_S64x64x1_S64x64x512 : S64x64x1.Broadcasts S64x64x512
  reduces_S64x64x512_S64x512 : S64x64x512.Reduces [1] S64x512
  shapeCasts_S64x512_S64x1x512 : S64x512.ShapeCasts S64x1x512
  reduces_S64x1x512_S64x1 : S64x1x512.Reduces [2] S64x1
  broadcasts_S64x1x1_S64x1x512 : S64x1x1.Broadcasts S64x1x512
  broadcasts_S64x1x512_S64x64x512 : S64x1x512.Broadcasts S64x64x512
  shapeCasts_S64x64x1_S64x64 : S64x64x1.ShapeCasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x512x64.size a
  hwx0_0 : ∀ i : grid0.Coords, EltTy.bits .f32 = 32 ∨ (Rect.block (s := S32x512x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S128x64x64.size a
  hwx0_1 : ∀ i : grid0.Coords, EltTy.bits .f32 = 32 ∨ (Rect.block (s := S128x64x64) S64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S32x128x64.size a
  hwx0_2 : ∀ i : grid0.Coords, EltTy.bits .f32 = 32 ∨ (Rect.block (s := S32x128x64) S1x64x64.size (cc0_transform_2 i) (hinb0_2 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x64 : Shape := ⟨3, ![32, 512, 64]⟩
abbrev S128x64x64 : Shape := ⟨3, ![128, 64, 64]⟩
abbrev S32x512x128x64 : Shape := ⟨4, ![32, 512, 128, 64]⟩
abbrev S32x128x512x64 : Shape := ⟨4, ![32, 128, 512, 64]⟩
abbrev S_ : Shape := ⟨0, ![]⟩
abbrev S32x128x64 : Shape := ⟨3, ![32, 128, 64]⟩
abbrev S32x128x1x64 : Shape := ⟨4, ![32, 128, 1, 64]⟩
abbrev S32x128x1 : Shape := ⟨3, ![32, 128, 1]⟩
abbrev S32x128x1x1 : Shape := ⟨4, ![32, 128, 1, 1]⟩
abbrev S32x128x512 : Shape := ⟨3, ![32, 128, 512]⟩
abbrev S32x128x512x1 : Shape := ⟨4, ![32, 128, 512, 1]⟩

abbrev nBuf : Space → Nat
  | .hbm => 113
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S128x64x64, .f32⟩
  | .hbm, ⟨2, _⟩ => ⟨S32x512x128x64, .f32⟩
  | .hbm, ⟨3, _⟩ => ⟨S32x128x512x64, .f32⟩
  | .hbm, ⟨4, _⟩ => ⟨S_, .f32⟩
  | .hbm, ⟨5, _⟩ => ⟨S32x128x64, .f32⟩
  | .hbm, ⟨6, _⟩ => ⟨S32x128x1x64, .f32⟩
  | .hbm, ⟨7, _⟩ => ⟨S_, .f32⟩
  | .hbm, ⟨8, _⟩ => ⟨S32x128x1x64, .f32⟩
  | .hbm, ⟨9, _⟩ => ⟨S32x128x1x64, .f32⟩
  | .hbm, ⟨10, _⟩ => ⟨S32x128x1x64, .f32⟩
  | .hbm, ⟨11, _⟩ => ⟨S_, .f32⟩
  | .hbm, ⟨12, _⟩ => ⟨S32x128x1, .f32⟩
  | .hbm, ⟨13, _⟩ => ⟨S32x128x1x1, .f32⟩
  | .hbm, ⟨14, _⟩ => ⟨S32x128x1x1, .f32⟩
  | .hbm, ⟨15, _⟩ => ⟨S_, .f32⟩
  | .hbm, ⟨16, _⟩ => ⟨S32x128x1x1, .f32⟩
  | .hbm, ⟨17, _⟩ => ⟨S32x128x1x1, .f32⟩
  | .hbm, ⟨18, _⟩ => ⟨S32x128x1x64, .f32⟩
  | .hbm, ⟨19, _⟩ => ⟨S32x128x1x64, .f32⟩
  | .hbm, ⟨20, _⟩ => ⟨S32x128x512x64, .f32⟩
  | .hbm, ⟨21, _⟩ => ⟨S32x128x512x64, .f32⟩
  | .hbm, ⟨22, _⟩ => ⟨S_, .f32⟩
  | .hbm, ⟨23, _⟩ => ⟨S32x128x512, .f32⟩
  | .hbm, ⟨24, _⟩ => ⟨S32x128x512x1, .f32⟩
  | .hbm, ⟨25, _⟩ => ⟨S_, .f32⟩
  | .hbm, ⟨26, _⟩ => ⟨S32x128x1, .f32⟩
  | .hbm, ⟨27, _⟩ => ⟨S_, .f32⟩
  | .hbm, ⟨28, _⟩ => ⟨S32x128x1, .f32⟩
  | .hbm, ⟨29, _⟩ => ⟨S32x128x1, .f32⟩
  | .hbm, ⟨30, _⟩ => ⟨S32x128x1x1, .f32⟩
  | .hbm, ⟨31, _⟩ => ⟨S32x128x512x1, .f32⟩
  | .hbm, ⟨32, _⟩ => ⟨S32x128x512x1, .f32⟩
  | .hbm, ⟨33, _⟩ => ⟨S32x128x512x1, .f32⟩
  | .hbm, ⟨34, _⟩ => ⟨S_, .f32⟩
  | .hbm, ⟨35, _⟩ => ⟨S32x128x1, .f32⟩
  | .hbm, ⟨36, _⟩ => ⟨S32x128x1x1, .f32⟩
  | .hbm, ⟨37, _⟩ => ⟨S32x128x512x1, .f32⟩
  | .hbm, ⟨38, _⟩ => ⟨S32x128x512x1, .f32⟩
  | .hbm, ⟨39, _⟩ => ⟨S32x128x512x64, .f32⟩
  | .hbm, ⟨40, _⟩ => ⟨S32x128x512x64, .f32⟩
  | .hbm, ⟨41, _⟩ => ⟨S_, .f32⟩
  | .hbm, ⟨42, _⟩ => ⟨S32x128x64, .f32⟩
  | .hbm, ⟨43, _⟩ => ⟨S32x128x1x64, .f32⟩
  | .hbm, ⟨44, _⟩ => ⟨S32x128x1x64, .f32⟩
  | .hbm, ⟨45, _⟩ => ⟨S_, .f32⟩
  | .hbm, ⟨46, _⟩ => ⟨S32x128x1, .f32⟩
  | .hbm, ⟨47, _⟩ => ⟨S32x128x1x1, .f32⟩
  | .hbm, ⟨48, _⟩ => ⟨S32x128x1x1, .f32⟩
  | .hbm, ⟨49, _⟩ => ⟨S_, .f32⟩
  | .hbm, ⟨50, _⟩ => ⟨S32x128x1x1, .f32⟩
  | .hbm, ⟨51, _⟩ => ⟨S32x128x1x1, .f32⟩
  | .hbm, ⟨52, _⟩ => ⟨S32x128x1x64, .f32⟩
  | .hbm, ⟨53, _⟩ => ⟨S32x128x1x64, .f32⟩
  | .hbm, ⟨54, _⟩ => ⟨S32x128x512x64, .f32⟩
  | .hbm, ⟨55, _⟩ => ⟨S32x128x512x64, .f32⟩
  | .hbm, ⟨56, _⟩ => ⟨S_, .f32⟩
  | .hbm, ⟨57, _⟩ => ⟨S32x128x512, .f32⟩
  | .hbm, ⟨58, _⟩ => ⟨S32x128x512x1, .f32⟩
  | .hbm, ⟨59, _⟩ => ⟨S_, .f32⟩
  | .hbm, ⟨60, _⟩ => ⟨S32x128x1, .f32⟩
  | .hbm, ⟨61, _⟩ => ⟨S_, .f32⟩
  | .hbm, ⟨62, _⟩ => ⟨S32x128x1, .f32⟩
  | .hbm, ⟨63, _⟩ => ⟨S32x128x1, .f32⟩
  | .hbm, ⟨64, _⟩ => ⟨S32x128x1x1, .f32⟩
  | .hbm, ⟨65, _⟩ => ⟨S32x128x512x1, .f32⟩
  | .hbm, ⟨66, _⟩ => ⟨S32x128x512x1, .f32⟩
  | .hbm, ⟨67, _⟩ => ⟨S32x128x512x1, .f32⟩
  | .hbm, ⟨68, _⟩ => ⟨S_, .f32⟩
  | .hbm, ⟨69, _⟩ => ⟨S32x128x1, .f32⟩
  | .hbm, ⟨70, _⟩ => ⟨S32x128x1x1, .f32⟩
  | .hbm, ⟨71, _⟩ => ⟨S32x128x512x1, .f32⟩
  | .hbm, ⟨72, _⟩ => ⟨S32x128x512x1, .f32⟩
  | .hbm, ⟨73, _⟩ => ⟨S32x128x512x64, .f32⟩
  | .hbm, ⟨74, _⟩ => ⟨S32x128x512x64, .f32⟩
  | .hbm, ⟨75, _⟩ => ⟨S_, .f32⟩
  | .hbm, ⟨76, _⟩ => ⟨S32x128x64, .f32⟩
  | .hbm, ⟨77, _⟩ => ⟨S32x128x1x64, .f32⟩
  | .hbm, ⟨78, _⟩ => ⟨S32x128x1x64, .f32⟩
  | .hbm, ⟨79, _⟩ => ⟨S_, .f32⟩
  | .hbm, ⟨80, _⟩ => ⟨S32x128x1, .f32⟩
  | .hbm, ⟨81, _⟩ => ⟨S32x128x1x1, .f32⟩
  | .hbm, ⟨82, _⟩ => ⟨S32x128x1x1, .f32⟩
  | .hbm, ⟨83, _⟩ => ⟨S_, .f32⟩
  | .hbm, ⟨84, _⟩ => ⟨S32x128x1x1, .f32⟩
  | .hbm, ⟨85, _⟩ => ⟨S32x128x1x1, .f32⟩
  | .hbm, ⟨86, _⟩ => ⟨S32x128x1x64, .f32⟩
  | .hbm, ⟨87, _⟩ => ⟨S32x128x1x64, .f32⟩
  | .hbm, ⟨88, _⟩ => ⟨S32x128x512x64, .f32⟩
  | .hbm, ⟨89, _⟩ => ⟨S32x128x512x64, .f32⟩
  | .hbm, ⟨90, _⟩ => ⟨S_, .f32⟩
  | .hbm, ⟨91, _⟩ => ⟨S32x128x512, .f32⟩
  | .hbm, ⟨92, _⟩ => ⟨S32x128x512x1, .f32⟩
  | .hbm, ⟨93, _⟩ => ⟨S_, .f32⟩
  | .hbm, ⟨94, _⟩ => ⟨S32x128x1, .f32⟩
  | .hbm, ⟨95, _⟩ => ⟨S_, .f32⟩
  | .hbm, ⟨96, _⟩ => ⟨S32x128x1, .f32⟩
  | .hbm, ⟨97, _⟩ => ⟨S32x128x1, .f32⟩
  | .hbm, ⟨98, _⟩ => ⟨S32x128x1x1, .f32⟩
  | .hbm, ⟨99, _⟩ => ⟨S32x128x512x1, .f32⟩
  | .hbm, ⟨100, _⟩ => ⟨S32x128x512x1, .f32⟩
  | .hbm, ⟨101, _⟩ => ⟨S32x128x512x1, .f32⟩
  | .hbm, ⟨102, _⟩ => ⟨S_, .f32⟩
  | .hbm, ⟨103, _⟩ => ⟨S32x128x1, .f32⟩
  | .hbm, ⟨104, _⟩ => ⟨S32x128x1x1, .f32⟩
  | .hbm, ⟨105, _⟩ => ⟨S32x128x512x1, .f32⟩
  | .hbm, ⟨106, _⟩ => ⟨S32x128x512x1, .f32⟩
  | .hbm, ⟨107, _⟩ => ⟨S32x128x512x64, .f32⟩
  | .hbm, ⟨108, _⟩ => ⟨S32x128x512x64, .f32⟩
  | .hbm, ⟨109, _⟩ => ⟨S_, .f32⟩
  | .hbm, ⟨110, _⟩ => ⟨S32x128x64, .f32⟩
  | .hbm, ⟨111, _⟩ => ⟨S32x128x1x64, .f32⟩
  | .hbm, ⟨112, _⟩ => ⟨S32x128x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_14 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_16 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_20 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_21 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]

class Facts₀ : Prop where
  transposes_S32x512x128x64_S32x128x512x64_0_2_1_3 : S32x512x128x64.Transposes [0, 2, 1, 3] S32x128x512x64
  reducesTo_S32x128x512x64_S32x128x64_d2 : S32x128x512x64.ReducesTo [2] S32x128x64
  h_S_ : 0 < S_.numel
  bcast_S32x128x64_S32x128x1x64_0_1_3 : S32x128x64.BroadcastsInDim S32x128x1x64 (![0, 1, 3] : Fin 3 → Fin S32x128x1x64.rank)
  bcast_S_S32x128x1x64 : S_.BroadcastsInDim S32x128x1x64 (![] : Fin 0 → Fin S32x128x1x64.rank)
  reducesTo_S32x128x1x64_S32x128x1_d3 : S32x128x1x64.ReducesTo [3] S32x128x1
  bcast_S32x128x1_S32x128x1x1_0_1_2 : S32x128x1.BroadcastsInDim S32x128x1x1 (![0, 1, 2] : Fin 3 → Fin S32x128x1x1.rank)
  bcast_S_S32x128x1x1 : S_.BroadcastsInDim S32x128x1x1 (![] : Fin 0 → Fin S32x128x1x1.rank)
  bcast_S32x128x1x1_S32x128x1x64_0_1_2_3 : S32x128x1x1.BroadcastsInDim S32x128x1x64 (![0, 1, 2, 3] : Fin 4 → Fin S32x128x1x64.rank)
  bcast_S32x128x1x64_S32x128x512x64_0_1_2_3 : S32x128x1x64.BroadcastsInDim S32x128x512x64 (![0, 1, 2, 3] : Fin 4 → Fin S32x128x512x64.rank)
  reducesTo_S32x128x512x64_S32x128x512_d3 : S32x128x512x64.ReducesTo [3] S32x128x512
  bcast_S32x128x512_S32x128x512x1_0_1_2 : S32x128x512.BroadcastsInDim S32x128x512x1 (![0, 1, 2] : Fin 3 → Fin S32x128x512x1.rank)
  reducesTo_S32x128x512x1_S32x128x1_d2 : S32x128x512x1.ReducesTo [2] S32x128x1
  bcast_S_S32x128x1 : S_.BroadcastsInDim S32x128x1 (![] : Fin 0 → Fin S32x128x1.rank)
  bcast_S32x128x1_S32x128x1x1_0_1_3 : S32x128x1.BroadcastsInDim S32x128x1x1 (![0, 1, 3] : Fin 3 → Fin S32x128x1x1.rank)
  bcast_S32x128x1x1_S32x128x512x1_0_1_2_3 : S32x128x1x1.BroadcastsInDim S32x128x512x1 (![0, 1, 2, 3] : Fin 4 → Fin S32x128x512x1.rank)
  bcast_S32x128x512x1_S32x128x512x64_0_1_2_3 : S32x128x512x1.BroadcastsInDim S32x128x512x64 (![0, 1, 2, 3] : Fin 4 → Fin S32x128x512x64.rank)
  shapeCasts_S32x128x1x64_S32x128x64 : S32x128x1x64.ShapeCasts S32x128x64
  dot_S32x512x64_S128x64x64_S32x512x128x64_2_2_01_01_n_n_wf : DotDims.WF S32x512x64 S128x64x64 S32x512x128x64 [2] [2] [0, 1] [0, 1] [] []

variable [Facts₀]

def dot_S32x512x64_S128x64x64_S32x512x128x64_2_2_01_01_n_n : DotDims S32x512x64 S128x64x64 S32x512x128x64 where
  lhsContracting := [2]
  rhsContracting := [2]
  lhsNonContracting := [0, 1]
  rhsNonContracting := [0, 1]
  lhsBatch := []
  rhsBatch := []
  wf := dot_S32x512x64_S128x64x64_S32x512x128x64_2_2_01_01_n_n_wf

class Facts : Prop extends Facts₀ where

variable [Facts]
-- ==== Proof.Routing.lean ====
/-
  Capsule routing by agreement, as plain mathematics over the extended reals.

  For one batch entry and one output capsule the priors are a table `p i j` (input capsule `i`, output
  coordinate `j`).  Routing starts from the mean of the priors over the input capsules and repeats one round:

    * normalise the current output vector `u` by its Euclidean length, floored by a small constant
      (`dir u j = u j / max (sqrt (∑ j, u j ²)) ε`);
    * score every input capsule by its prior's inner product with that direction (`logit`);
    * turn the scores into weights by the softmax over the input capsules, computed the stable way:
      subtract the largest score (`top`, a maximum taken from −∞), exponentiate (`wexp`), divide by the
      sum of the exponentials (`coef`);
    * the new output vector is the weighted sum of the priors (`step`).

  `route` is the mean followed by three rounds.  Every sum is a `Finset` sum over a `Fin`, every maximum a
  `Finset.fold max`, so neither the order of summation nor the layout of the tables appears here: a program
  whose arrays hold these tables in any arrangement computes `route` as soon as each of its reductions is read
  as the sum or fold over the right coordinate.  The three float literals stay the words the programs print.
-/
import Idealize.ShloMosaic.PureOps.Ideal

noncomputable section

namespace Cert.Routing

open Idealize.ShloMosaic

/-- The floor under the length: the f32 word both programs print for `1e-12`. -/
abbrev epsW : BitVec 32 := 0x2B8CBCCC#32
/-- The f32 word of −∞, the neutral element both programs start the maximum from. -/
abbrev ninfW : BitVec 32 := 0xFF800000#32
/-- The f32 word of 512, the number of input capsules the mean divides by. -/
abbrev cntW : BitVec 32 := 0x44000000#32

variable {I J : ℕ}

/-- The floored Euclidean length of an output vector. -/
def len (u : Fin J → EReal) : EReal :=
  max (Ideal.sqrt (∑ j, u j * u j)) (Ideal.ofBits .f32 epsW)

/-- The output vector scaled to (at most) unit length. -/
def dir (u : Fin J → EReal) (j : Fin J) : EReal := Ideal.div (u j) (len u)

/-- Input capsule `i`'s agreement with the current direction. -/
def logit (p : Fin I → Fin J → EReal) (u : Fin J → EReal) (i : Fin I) : EReal := ∑ j, p i j * dir u j

/-- The largest score, the maximum taken from −∞ (and once more against −∞, as the softmax is written). -/
def top (l : Fin I → EReal) : EReal :=
  max (Ideal.ofBits .f32 ninfW) ((Finset.univ : Finset (Fin I)).fold max (Ideal.ofBits .f32 ninfW) l)

/-- The shifted exponential of a score. -/
def wexp (l : Fin I → EReal) (i : Fin I) : EReal := Ideal.exp (l i - top l)

/-- The softmax weight of input capsule `i`. -/
def coef (l : Fin I → EReal) (i : Fin I) : EReal := Ideal.div (wexp l i) (∑ i', wexp l i')

/-- One routing round: the priors averaged with the softmax weights of their agreement with `u`. -/
def step (p : Fin I → Fin J → EReal) (u : Fin J → EReal) (j : Fin J) : EReal :=
  ∑ i, coef (logit p u) i * p i j

/-- The starting vector: the plain mean of the priors over the input capsules. -/
def mean (p : Fin I → Fin J → EReal) (j : Fin J) : EReal :=
  Ideal.div (∑ i, p i j) (Ideal.ofBits .f32 cntW)

/-- Three rounds from the mean. -/
def route (p : Fin I → Fin J → EReal) : Fin J → EReal := step p (step p (step p (mean p)))

end Cert.Routing

end
-- ==== Proof.RefOps.lean ====
/-
  The reference's routing, piece by piece, read at an index.

  The reference keeps every (batch entry, capsule) pair side by side in rank-4 arrays and writes each reduction with a
  kept unit axis followed by broadcasts.  Here its four recurring pieces are named as functions of whole arrays: the
  mean of the priors over the input capsules, one round's scores, the shifted exponentials of the scores, and the
  weighted sum of the priors.  Read at one (batch entry, capsule) pair, each is a closed formula in that pair's table of priors (the formulas the routing
  specification is written in): a broadcast reads its operand at the kept coordinates, a
  reduction over one axis is the sum (or the fold of max) over that axis's coordinate.  The priors themselves are the
  contraction of the two inputs over their last axis, transposed so that the capsule comes before the input capsule.
-/
import proofs.«180689_j18056042512757_1_alg».proof.Proof.Gen.ReferenceIdeal
import proofs.«180689_j18056042512757_1_alg».proof.Proof.Routing
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RouteR

open Idealize.ShloMosaic Idealize.ShloMosaic.ValueIdx Idealize.ShloMosaic.StableHlo Cert.ReferenceIdeal Cert.ReferenceIdeal.Gen

/-! ## The pieces, over whole arrays, for any float values -/

section Pieces
variable {F : FTy → Type} [FloatOps F]

/-- The mean of the priors over the input capsules, the reduced axis kept as a unit axis. -/
def meanV (P : FVec F S32x128x512x64 .f32) : FVec F S32x128x1x64 .f32 :=
  Host.divf (broadcastInDim S32x128x1x64 ![0, 1, 3] bcast_S32x128x64_S32x128x1x64_0_1_3 (Host.reduceAdd P (constant S_ .f32 0x00000000#32) reducesTo_S32x128x512x64_S32x128x64_d2 h_S_)) (broadcastInDim S32x128x1x64 ![] bcast_S_S32x128x1x64 (constant S_ .f32 0x44000000#32))

/-- One round's scores: each prior's inner product with the current output vector scaled to unit length. -/
def logitsV (P : FVec F S32x128x512x64 .f32) (u : FVec F S32x128x1x64 .f32) : FVec F S32x128x512x1 .f32 :=
  broadcastInDim S32x128x512x1 ![0, 1, 2] bcast_S32x128x512_S32x128x512x1_0_1_2 (Host.reduceAdd (mulf P (broadcastInDim S32x128x512x64 ![0, 1, 2, 3] bcast_S32x128x1x64_S32x128x512x64_0_1_2_3 (Host.divf u (broadcastInDim S32x128x1x64 ![0, 1, 2, 3] bcast_S32x128x1x1_S32x128x1x64_0_1_2_3 (maximumf (Host.sqrt (broadcastInDim S32x128x1x1 ![0, 1, 2] bcast_S32x128x1_S32x128x1x1_0_1_2 (Host.reduceAdd (mulf u u) (constant S_ .f32 0x00000000#32) reducesTo_S32x128x1x64_S32x128x1_d3 h_S_))) (broadcastInDim S32x128x1x1 ![] bcast_S_S32x128x1x1 (constant S_ .f32 0x2B8CBCCC#32))))))) (constant S_ .f32 0x00000000#32) reducesTo_S32x128x512x64_S32x128x512_d3 h_S_)

/-- The exponentials of the scores less their maximum over the input capsules. -/
def expsV (lg : FVec F S32x128x512x1 .f32) : FVec F S32x128x512x1 .f32 :=
  Host.exp (subf lg (broadcastInDim S32x128x512x1 ![0, 1, 2, 3] bcast_S32x128x1x1_S32x128x512x1_0_1_2_3 (broadcastInDim S32x128x1x1 ![0, 1, 3] bcast_S32x128x1_S32x128x1x1_0_1_3 (maximumf (broadcastInDim S32x128x1 ![] bcast_S_S32x128x1 (constant S_ .f32 0xFF800000#32)) (Host.reduce FloatOps.maximumf lg (constant S_ .f32 0xFF800000#32) reducesTo_S32x128x512x1_S32x128x1_d2 h_S_)))))

/-- The priors summed over the input capsules with the normalised exponentials as weights. -/
def outV (P : FVec F S32x128x512x64 .f32) (e : FVec F S32x128x512x1 .f32) : FVec F S32x128x1x64 .f32 :=
  broadcastInDim S32x128x1x64 ![0, 1, 3] bcast_S32x128x64_S32x128x1x64_0_1_3 (Host.reduceAdd (mulf (broadcastInDim S32x128x512x64 ![0, 1, 2, 3] bcast_S32x128x512x1_S32x128x512x64_0_1_2_3 (Host.divf e (broadcastInDim S32x128x512x1 ![0, 1, 2, 3] bcast_S32x128x1x1_S32x128x512x1_0_1_2_3 (broadcastInDim S32x128x1x1 ![0, 1, 3] bcast_S32x128x1_S32x128x1x1_0_1_3 (Host.reduceAdd e (constant S_ .f32 0x00000000#32) reducesTo_S32x128x512x1_S32x128x1_d2 h_S_))))) P) (constant S_ .f32 0x00000000#32) reducesTo_S32x128x512x64_S32x128x64_d2 h_S_)

/-- The priors: the two inputs contracted over their last axes, the capsule axis moved in front of the input capsules'. -/
def priorsV (X : FVec F S32x512x64 .f32) (W : FVec F S128x64x64 .f32) : FVec F S32x128x512x64 .f32 :=
  transpose S32x128x512x64 [0, 2, 1, 3] (Host.dotGeneral dot_S32x512x64_S128x64x64_S32x512x128x64_2_2_01_01_n_n none X W) transposes_S32x512x128x64_S32x128x512x64_0_2_1_3

/-- The whole routing over a priors array: three rounds from the mean, then the last round's kept unit axis reshaped away. -/
def routedV (P : FVec F S32x128x512x64 .f32) : FVec F S32x128x64 .f32 :=
  shapeCast S32x128x64 (outV P (expsV (logitsV P (outV P (expsV (logitsV P (outV P (expsV (logitsV P (meanV P))))))))))
    shapeCasts_S32x128x1x64_S32x128x64

end Pieces

/-! ## Broadcasts read at an index -/

section Broadcasts
variable {α : Type}

/-- A kept unit axis put back between the capsule and the coordinate. -/
theorem bc_bo_j (x : S32x128x64.Idx → α) (b : Fin 32) (o : Fin 128) (z : Fin 1) (j : Fin 64) :
    broadcastInDim S32x128x1x64 ![0, 1, 3] bcast_S32x128x64_S32x128x1x64_0_1_3 x (ix4 b o z j) = x (ix3 b o j) :=
  broadcastInDim_apply _ _ x _ (ix3 b o j) (fun a => match a with | ⟨0, _⟩ => rfl | ⟨1, _⟩ => rfl | ⟨2, _⟩ => rfl)

/-- A second kept unit axis appended (axes 0, 1, 2 kept). -/
theorem bc_bo1_a (x : S32x128x1.Idx → α) (b : Fin 32) (o : Fin 128) (z w : Fin 1) :
    broadcastInDim S32x128x1x1 ![0, 1, 2] bcast_S32x128x1_S32x128x1x1_0_1_2 x (ix4 b o z w) = x (ix3 b o 0) :=
  broadcastInDim_apply _ _ x _ (ix3 b o 0) (fun a => match a with | ⟨0, _⟩ => rfl | ⟨1, _⟩ => rfl | ⟨2, _⟩ => rfl)

/-- A second kept unit axis inserted before the last (axes 0, 1, 3 kept). -/
theorem bc_bo1_b (x : S32x128x1.Idx → α) (b : Fin 32) (o : Fin 128) (z w : Fin 1) :
    broadcastInDim S32x128x1x1 ![0, 1, 3] bcast_S32x128x1_S32x128x1x1_0_1_3 x (ix4 b o z w) = x (ix3 b o 0) :=
  broadcastInDim_apply _ _ x _ (ix3 b o 0) (fun a => match a with | ⟨0, _⟩ => rfl | ⟨1, _⟩ => rfl | ⟨2, _⟩ => rfl)

/-- One value per (batch entry, capsule) copied along the coordinates. -/
theorem bc_bo11_j (x : S32x128x1x1.Idx → α) (b : Fin 32) (o : Fin 128) (z : Fin 1) (j : Fin 64) :
    broadcastInDim S32x128x1x64 ![0, 1, 2, 3] bcast_S32x128x1x1_S32x128x1x64_0_1_2_3 x (ix4 b o z j) = x (ix4 b o 0 0) :=
  broadcastInDim_apply _ _ x _ (ix4 b o 0 0)
    (fun a => match a with | ⟨0, _⟩ => rfl | ⟨1, _⟩ => rfl | ⟨2, _⟩ => rfl | ⟨3, _⟩ => rfl)

/-- One vector per (batch entry, capsule) copied along the input capsules. -/
theorem bc_bo1j_i (x : S32x128x1x64.Idx → α) (b : Fin 32) (o : Fin 128) (i : Fin 512) (j : Fin 64) :
    broadcastInDim S32x128x512x64 ![0, 1, 2, 3] bcast_S32x128x1x64_S32x128x512x64_0_1_2_3 x (ix4 b o i j) = x (ix4 b o 0 j) :=
  broadcastInDim_apply _ _ x _ (ix4 b o 0 j)
    (fun a => match a with | ⟨0, _⟩ => rfl | ⟨1, _⟩ => rfl | ⟨2, _⟩ => rfl | ⟨3, _⟩ => rfl)

/-- A kept unit axis appended after the input capsules. -/
theorem bc_boi_1 (x : S32x128x512.Idx → α) (b : Fin 32) (o : Fin 128) (i : Fin 512) (z : Fin 1) :
    broadcastInDim S32x128x512x1 ![0, 1, 2] bcast_S32x128x512_S32x128x512x1_0_1_2 x (ix4 b o i z) = x (ix3 b o i) :=
  broadcastInDim_apply _ _ x _ (ix3 b o i) (fun a => match a with | ⟨0, _⟩ => rfl | ⟨1, _⟩ => rfl | ⟨2, _⟩ => rfl)

/-- One value per (batch entry, capsule) copied along the input capsules. -/
theorem bc_bo11_i (x : S32x128x1x1.Idx → α) (b : Fin 32) (o : Fin 128) (i : Fin 512) (z : Fin 1) :
    broadcastInDim S32x128x512x1 ![0, 1, 2, 3] bcast_S32x128x1x1_S32x128x512x1_0_1_2_3 x (ix4 b o i z) = x (ix4 b o 0 0) :=
  broadcastInDim_apply _ _ x _ (ix4 b o 0 0)
    (fun a => match a with | ⟨0, _⟩ => rfl | ⟨1, _⟩ => rfl | ⟨2, _⟩ => rfl | ⟨3, _⟩ => rfl)

/-- One value per input capsule copied along the coordinates. -/
theorem bc_boi1_j (x : S32x128x512x1.Idx → α) (b : Fin 32) (o : Fin 128) (i : Fin 512) (j : Fin 64) :
    broadcastInDim S32x128x512x64 ![0, 1, 2, 3] bcast_S32x128x512x1_S32x128x512x64_0_1_2_3 x (ix4 b o i j) = x (ix4 b o i 0) :=
  broadcastInDim_apply _ _ x _ (ix4 b o i 0)
    (fun a => match a with | ⟨0, _⟩ => rfl | ⟨1, _⟩ => rfl | ⟨2, _⟩ => rfl | ⟨3, _⟩ => rfl)

end Broadcasts

/-! ## Reductions over one axis read at an index, at the ideal values -/

section Reductions

theorem reduces_bo_j : S32x128x512x64.Reduces [2] S32x128x64 := by decide
theorem reduces_bo1 : S32x128x1x64.Reduces [3] S32x128x1 := by decide
theorem reduces_boi : S32x128x512x64.Reduces [3] S32x128x512 := by decide
theorem reduces_bo1' : S32x128x512x1.Reduces [2] S32x128x1 := by decide

/-- The host's zero to start a sum from is the extended real zero. -/
theorem init_zero : (constant (F := Ideal) S_ .f32 0x00000000#32) (Shape.Idx.first h_S_) = (0 : EReal) :=
  Ideal.ofBits_zero_f32

/-- Summing a rank-4 array over its input-capsule axis. -/
theorem sum_over_i (x : FVec Ideal S32x128x512x64 .f32) (b : Fin 32) (o : Fin 128) (j : Fin 64) :
    Host.reduceAdd x (constant (F := Ideal) S_ .f32 0x00000000#32) reducesTo_S32x128x512x64_S32x128x64_d2 h_S_ (ix3 b o j)
      = ∑ i : Fin 512, x (ix4 b o i j) := by
  refine (Ideal.hostReduceAdd_single reducesTo_S32x128x512x64_S32x128x64_d2 reduces_bo_j x _ (ix3 b o j)).trans ?_
  rw [init_zero, zero_add]
  refine Finset.sum_congr rfl fun i _ => congrArg x (funext fun c => ?_)
  match c with
  | ⟨0, _⟩ => exact Fin.ext rfl
  | ⟨1, _⟩ => exact Fin.ext rfl
  | ⟨2, _⟩ => exact Fin.ext rfl
  | ⟨3, _⟩ => exact Fin.ext rfl

/-- Summing one vector per (batch entry, capsule) over its coordinates. -/
theorem sum_over_j1 (x : FVec Ideal S32x128x1x64 .f32) (b : Fin 32) (o : Fin 128) (z : Fin 1) :
    Host.reduceAdd x (constant (F := Ideal) S_ .f32 0x00000000#32) reducesTo_S32x128x1x64_S32x128x1_d3 h_S_ (ix3 b o z)
      = ∑ j : Fin 64, x (ix4 b o z j) := by
  refine (Ideal.hostReduceAdd_single reducesTo_S32x128x1x64_S32x128x1_d3 reduces_bo1 x _ (ix3 b o z)).trans ?_
  rw [init_zero, zero_add]
  refine Finset.sum_congr rfl fun j _ => congrArg x (funext fun c => ?_)
  match c with
  | ⟨0, _⟩ => exact Fin.ext rfl
  | ⟨1, _⟩ => exact Fin.ext rfl
  | ⟨2, _⟩ => exact Fin.ext rfl
  | ⟨3, _⟩ => exact Fin.ext rfl

/-- Summing a rank-4 array over its coordinate axis. -/
theorem sum_over_j (x : FVec Ideal S32x128x512x64 .f32) (b : Fin 32) (o : Fin 128) (i : Fin 512) :
    Host.reduceAdd x (constant (F := Ideal) S_ .f32 0x00000000#32) reducesTo_S32x128x512x64_S32x128x512_d3 h_S_ (ix3 b o i)
      = ∑ j : Fin 64, x (ix4 b o i j) := by
  refine (Ideal.hostReduceAdd_single reducesTo_S32x128x512x64_S32x128x512_d3 reduces_boi x _ (ix3 b o i)).trans ?_
  rw [init_zero, zero_add]
  refine Finset.sum_congr rfl fun j _ => congrArg x (funext fun c => ?_)
  match c with
  | ⟨0, _⟩ => exact Fin.ext rfl
  | ⟨1, _⟩ => exact Fin.ext rfl
  | ⟨2, _⟩ => exact Fin.ext rfl
  | ⟨3, _⟩ => exact Fin.ext rfl

/-- Summing one value per input capsule over the input capsules. -/
theorem sum_over_i1 (x : FVec Ideal S32x128x512x1 .f32) (b : Fin 32) (o : Fin 128) (z : Fin 1) :
    Host.reduceAdd x (constant (F := Ideal) S_ .f32 0x00000000#32) reducesTo_S32x128x512x1_S32x128x1_d2 h_S_ (ix3 b o z)
      = ∑ i : Fin 512, x (ix4 b o i z) := by
  refine (Ideal.hostReduceAdd_single reducesTo_S32x128x512x1_S32x128x1_d2 reduces_bo1' x _ (ix3 b o z)).trans ?_
  rw [init_zero, zero_add]
  refine Finset.sum_congr rfl fun i _ => congrArg x (funext fun c => ?_)
  match c with
  | ⟨0, _⟩ => exact Fin.ext rfl
  | ⟨1, _⟩ => exact Fin.ext rfl
  | ⟨2, _⟩ => exact Fin.ext rfl
  | ⟨3, _⟩ => exact Fin.ext rfl

/-- The maximum, from −∞, of one value per input capsule over the input capsules. -/
theorem max_over_i1 (x : FVec Ideal S32x128x512x1 .f32) (b : Fin 32) (o : Fin 128) (z : Fin 1) :
    Host.reduce (FloatOps.maximumf (F := Ideal) (φ := .f32)) x (constant (F := Ideal) S_ .f32 0xFF800000#32)
        reducesTo_S32x128x512x1_S32x128x1_d2 h_S_ (ix3 b o z)
      = (Finset.univ : Finset (Fin 512)).fold max (Ideal.ofBits .f32 0xFF800000#32) (fun i => x (ix4 b o i z)) := by
  refine (Host.reduce_eq_fold_single (FloatOps.maximumf (F := Ideal) (φ := .f32)) x _
    reducesTo_S32x128x512x1_S32x128x1_d2 reduces_bo1' h_S_ (ix3 b o z)).trans ?_
  have e : (x ∘ reduces_bo1'.lift (ix3 b o z)) = fun i : Fin 512 => x (ix4 b o i z) :=
    funext fun i => congrArg x (funext fun c => by
      match c with
      | ⟨0, _⟩ => exact Fin.ext rfl
      | ⟨1, _⟩ => exact Fin.ext rfl
      | ⟨2, _⟩ => exact Fin.ext rfl
      | ⟨3, _⟩ => exact Fin.ext rfl)
  rw [e]
  rfl

end Reductions

/-! ## The priors read at an index -/

section Priors

/-- The dimension numbers of the contraction, by their printed name. -/
abbrev DD := dot_S32x512x64_S128x64x64_S32x512x128x64_2_2_01_01_n_n

theorem lhs_0 (j : S32x512x128x64.Idx) (k : DD.contr.Idx) : (DD.lhsIdx j k 0 : ℕ) = j 0 := by
  simp [DotDims.lhsIdx, DD, dot_S32x512x64_S128x64x64_S32x512x128x64_2_2_01_01_n_n]; rfl
theorem lhs_1 (j : S32x512x128x64.Idx) (k : DD.contr.Idx) : (DD.lhsIdx j k 1 : ℕ) = j 1 := by
  simp [DotDims.lhsIdx, DD, dot_S32x512x64_S128x64x64_S32x512x128x64_2_2_01_01_n_n]; rfl
theorem lhs_2 (j : S32x512x128x64.Idx) (k : DD.contr.Idx) : (DD.lhsIdx j k 2 : ℕ) = k ⟨0, by decide⟩ := by
  simp [DotDims.lhsIdx, DD, dot_S32x512x64_S128x64x64_S32x512x128x64_2_2_01_01_n_n]; rfl
theorem rhs_0 (j : S32x512x128x64.Idx) (k : DD.contr.Idx) : (DD.rhsIdx j k 0 : ℕ) = j 2 := by
  simp [DotDims.rhsIdx, DD, dot_S32x512x64_S128x64x64_S32x512x128x64_2_2_01_01_n_n]; rfl
theorem rhs_1 (j : S32x512x128x64.Idx) (k : DD.contr.Idx) : (DD.rhsIdx j k 1 : ℕ) = j 3 := by
  simp [DotDims.rhsIdx, DD, dot_S32x512x64_S128x64x64_S32x512x128x64_2_2_01_01_n_n]; rfl
theorem rhs_2 (j : S32x512x128x64.Idx) (k : DD.contr.Idx) : (DD.rhsIdx j k 2 : ℕ) = k ⟨0, by decide⟩ := by
  simp [DotDims.rhsIdx, DD, dot_S32x512x64_S128x64x64_S32x512x128x64_2_2_01_01_n_n]; rfl

/-- The contraction's index is the contracted axis's coordinate. -/
def contrE : DD.contr.Idx ≃ Fin 64 := contrEquiv1 DD 64 (by decide) (by decide)

theorem contrE_symm_val (l : Fin 64) : ((contrE.symm l) ⟨0, by decide⟩ : ℕ) = l.val :=
  contrEquiv1_symm_val DD 64 (by decide) (by decide) l

/-- Entry (batch entry, capsule, input capsule, coordinate) of the priors: the inner product over the last axis of
    the input capsule's vector and the row of the capsule's matrix. -/
theorem priorsV_apply (X : FVec Ideal S32x512x64 .f32) (W : FVec Ideal S128x64x64 .f32) (b : Fin 32) (o : Fin 128)
    (i : Fin 512) (j : Fin 64) :
    priorsV X W (ix4 b o i j) = ∑ l : Fin 64, X (ix3 b i l) * W (ix3 o j l) := by
  unfold priorsV
  refine (transpose_apply _ _ _ _ (ix4 b i o j) (fun a => match a with
    | ⟨0, _⟩ => rfl | ⟨1, _⟩ => rfl | ⟨2, _⟩ => rfl | ⟨3, _⟩ => rfl)).trans ?_
  refine (Ideal.dotGeneral_apply DD none _ X W (ix4 b i o j)).trans ?_
  rw [← Equiv.sum_comp contrE.symm]
  refine Finset.sum_congr rfl fun l _ => ?_
  congr 1
  · refine congrArg X (funext fun c => Fin.ext ?_)
    match c with
    | ⟨0, _⟩ => exact lhs_0 _ _
    | ⟨1, _⟩ => exact lhs_1 _ _
    | ⟨2, _⟩ => exact (lhs_2 _ _).trans (contrE_symm_val l)
  · refine congrArg W (funext fun c => Fin.ext ?_)
    match c with
    | ⟨0, _⟩ => exact rhs_0 _ _
    | ⟨1, _⟩ => exact rhs_1 _ _
    | ⟨2, _⟩ => exact (rhs_2 _ _).trans (contrE_symm_val l)

end Priors

/-! ## The pieces read at an index, at the ideal values -/

section PiecesAtIndex

/-- The host's square root at an index. -/
theorem hostSqrt_apply {s : Shape} (x : FVec Ideal s .f32) (i : s.Idx) : Host.sqrt x i = Ideal.sqrt (x i) := rfl
/-- The host's exponential at an index. -/
theorem hostExp_apply {s : Shape} (x : FVec Ideal s .f32) (i : s.Idx) : Host.exp x i = Ideal.exp (x i) := rfl

/-- The mean at (batch entry, capsule, coordinate): the sum of the priors over the input capsules, divided by their number. -/
theorem meanV_apply (P : FVec Ideal S32x128x512x64 .f32) (b : Fin 32) (o : Fin 128) (z : Fin 1) (j : Fin 64) :
    meanV P (ix4 b o z j) = Ideal.div (∑ i : Fin 512, P (ix4 b o i j)) (Ideal.ofBits .f32 0x44000000#32) := by
  unfold meanV
  rw [hostDivf_apply, bc_bo_j, sum_over_i, broadcastInDim_scalar_apply]
  rfl

/-- A score at (batch entry, capsule, input capsule): the prior's inner product with the output vector divided by
    its floored length. -/
theorem logitsV_apply (P : FVec Ideal S32x128x512x64 .f32) (u : FVec Ideal S32x128x1x64 .f32) (b : Fin 32) (o : Fin 128)
    (i : Fin 512) (z : Fin 1) :
    logitsV P u (ix4 b o i z)
      = ∑ j : Fin 64, P (ix4 b o i j) * Ideal.div (u (ix4 b o 0 j))
          (max (Ideal.sqrt (∑ j' : Fin 64, u (ix4 b o 0 j') * u (ix4 b o 0 j'))) (Ideal.ofBits .f32 0x2B8CBCCC#32)) := by
  unfold logitsV
  rw [bc_boi_1, sum_over_j]
  refine Finset.sum_congr rfl fun j _ => ?_
  rw [mulf_apply, bc_bo1j_i, hostDivf_apply, bc_bo11_j, maximumf_apply, hostSqrt_apply, bc_bo1_a, sum_over_j1,
    broadcastInDim_scalar_apply]
  rfl

/-- A shifted exponential at (batch entry, capsule, input capsule): the score less the largest score, the maximum
    taken from −∞ and once more against −∞. -/
theorem expsV_apply (lg : FVec Ideal S32x128x512x1 .f32) (b : Fin 32) (o : Fin 128) (i : Fin 512) :
    expsV lg (ix4 b o i 0)
      = Ideal.exp (lg (ix4 b o i 0) - max (Ideal.ofBits .f32 0xFF800000#32)
          ((Finset.univ : Finset (Fin 512)).fold max (Ideal.ofBits .f32 0xFF800000#32) (fun i' => lg (ix4 b o i' 0)))) := by
  unfold expsV
  rw [hostExp_apply, subf_apply, bc_bo11_i, bc_bo1_b, maximumf_apply, broadcastInDim_scalar_apply, max_over_i1]
  rfl

/-- The round's output at (batch entry, capsule, coordinate): the priors summed over the input capsules, each weighted
    by its exponential's share of the exponentials' sum. -/
theorem outV_apply (P : FVec Ideal S32x128x512x64 .f32) (e : FVec Ideal S32x128x512x1 .f32) (b : Fin 32) (o : Fin 128)
    (z : Fin 1) (j : Fin 64) :
    outV P e (ix4 b o z j)
      = ∑ i : Fin 512, Ideal.div (e (ix4 b o i 0)) (∑ i' : Fin 512, e (ix4 b o i' 0)) * P (ix4 b o i j) := by
  unfold outV
  rw [bc_bo_j, sum_over_i]
  refine Finset.sum_congr rfl fun i _ => ?_
  rw [mulf_apply, bc_boi1_j, hostDivf_apply, bc_bo11_i, bc_bo1_b, sum_over_i1]

/-- The kept unit axis reshaped away: entry (batch entry, capsule, coordinate) is the entry at unit coordinate 0. -/
theorem unkeep_apply {α : Type} (x : S32x128x1x64.Idx → α) (b : Fin 32) (o : Fin 128) (j : Fin 64) :
    shapeCast S32x128x64 x shapeCasts_S32x128x1x64_S32x128x64 (ix3 b o j) = x (ix4 b o 0 j) :=
  shapeCast_apply x _ _ _ (by
    rw [Shape.rowMajor_val_four, Shape.rowMajor_val_three]
    show ((b.val * 128 + o.val) * 1 + 0) * 64 + j.val = (b.val * 128 + o.val) * 64 + j.val
    rw [Nat.mul_one, Nat.add_zero])

end PiecesAtIndex

/-! ## The pieces as the routing specification's functions -/

section AsRouting

/-- The mean, read at one (batch entry, capsule) pair, is the specification's mean of that pair's priors. -/
theorem meanV_eq_mean (P : FVec Ideal S32x128x512x64 .f32) (b : Fin 32) (o : Fin 128) (z : Fin 1) (j : Fin 64) :
    meanV P (ix4 b o z j) = Cert.Routing.mean (fun (i : Fin 512) (j' : Fin 64) => P (ix4 b o i j')) j :=
  meanV_apply P b o z j

/-- One round, read at one (batch entry, capsule) pair, is the specification's round on that pair's priors and
    current output vector. -/
theorem round_eq_step (P : FVec Ideal S32x128x512x64 .f32) (u : FVec Ideal S32x128x1x64 .f32) (b : Fin 32) (o : Fin 128)
    (z : Fin 1) (j : Fin 64) :
    outV P (expsV (logitsV P u)) (ix4 b o z j)
      = Cert.Routing.step (fun (i : Fin 512) (j' : Fin 64) => P (ix4 b o i j')) (fun j' : Fin 64 => u (ix4 b o 0 j')) j := by
  rw [outV_apply]
  refine Finset.sum_congr rfl fun i _ => ?_
  have hl : ∀ i' : Fin 512, logitsV P u (ix4 b o i' 0)
      = Cert.Routing.logit (fun (i : Fin 512) (j' : Fin 64) => P (ix4 b o i j')) (fun j' : Fin 64 => u (ix4 b o 0 j')) i' :=
    fun i' => logitsV_apply P u b o i' 0
  have he : ∀ i' : Fin 512, expsV (logitsV P u) (ix4 b o i' 0)
      = Cert.Routing.wexp (Cert.Routing.logit (fun (i : Fin 512) (j' : Fin 64) => P (ix4 b o i j'))
          (fun j' : Fin 64 => u (ix4 b o 0 j'))) i' := by
    intro i'
    rw [expsV_apply]
    simp only [hl]
    rfl
  simp only [he]
  rfl

/-- The whole routing, read at one (batch entry, capsule) pair, is the specification's three rounds from the mean on
    that pair's priors. -/
theorem routedV_apply (P : FVec Ideal S32x128x512x64 .f32) (b : Fin 32) (o : Fin 128) (j : Fin 64) :
    routedV P (ix3 b o j) = Cert.Routing.route (fun (i : Fin 512) (j' : Fin 64) => P (ix4 b o i j')) j := by
  have h0 : (fun j' : Fin 64 => meanV P (ix4 b o 0 j')) = Cert.Routing.mean (fun (i : Fin 512) (j' : Fin 64) => P (ix4 b o i j')) :=
    funext fun j' => meanV_eq_mean P b o 0 j'
  have h1 : (fun j' : Fin 64 => outV P (expsV (logitsV P (meanV P))) (ix4 b o 0 j'))
      = Cert.Routing.step (fun (i : Fin 512) (j' : Fin 64) => P (ix4 b o i j'))
          (Cert.Routing.mean (fun (i : Fin 512) (j' : Fin 64) => P (ix4 b o i j'))) :=
    funext fun j' => by rw [round_eq_step, h0]
  have h2 : (fun j' : Fin 64 => outV P (expsV (logitsV P (outV P (expsV (logitsV P (meanV P)))))) (ix4 b o 0 j'))
      = Cert.Routing.step (fun (i : Fin 512) (j' : Fin 64) => P (ix4 b o i j'))
          (Cert.Routing.step (fun (i : Fin 512) (j' : Fin 64) => P (ix4 b o i j'))
            (Cert.Routing.mean (fun (i : Fin 512) (j' : Fin 64) => P (ix4 b o i j')))) :=
    funext fun j' => by rw [round_eq_step, h1]
  unfold routedV
  rw [unkeep_apply, round_eq_step, h2]
  rfl

end AsRouting

end Cert.ReferenceIdeal.RouteR

end
-- ==== Proof.RefRun.lean ====
/-
  The reference's run, evaluated one stretch at a time.

  After the run every buffer holds the fold of the operations' results over the launch contents.  The operations
  fall into eleven stretches that meet only at a few buffers: the priors (read by every later stretch), the mean,
  and per round the logits, the exponentials and the round's output.  Over ANY contents `W` of the buffers, each
  stretch writes into its last buffer one of the vector-level pieces of Proof/RefOps.lean applied to the one or two
  buffers it reads, and leaves the priors as they were.  Composing the eleven facts — never opening a piece — gives
  the result buffer as `routedV` of the priors of the two arguments: the composition stays as small as the
  program's own text, because each shared intermediate is named by the buffer that holds it.
-/
import proofs.«180689_j18056042512757_1_alg».proof.Proof.RefRunOps
import proofs.«180689_j18056042512757_1_alg».proof.Proof.RefOps
import Idealize.ShloMosaic.Lib.Pipeline.Frame

noncomputable section

namespace Cert.ReferenceIdeal.Stretches

open Cert.ReferenceIdeal Cert.ReferenceIdeal.Gen Cert.ReferenceIdeal.RunP Cert.ReferenceIdeal.RouteR
open Idealize.ShloMosaic Idealize.ShloMosaic.TcCoe Idealize.SL.Sem Idealize.ShloMosaic.StableHlo

variable (W : Valuation τ sig (Elt Ideal))

/-! ## Each stretch, over any contents -/

/-- The contraction and its transpose: the priors of the two arguments. -/
theorem stretch1 : after (ops1 (F := Ideal)) W (Proc.devRef .tc main_v1) = priorsV (F := Ideal) (W (Proc.devRef .tc main_arg0)) (W (Proc.devRef .tc main_arg1)) := by
  after_results
  rfl

/-- The mean of the priors over the input capsules. -/
theorem stretch2 : after (ops2 (F := Ideal)) W (Proc.devRef .tc main_v5) = meanV (F := Ideal) (W (Proc.devRef .tc main_v1)) := by
  after_results
  rfl
theorem keep2 : after (ops2 (F := Ideal)) W (Proc.devRef .tc main_v1) = W (Proc.devRef .tc main_v1) := by
  after_results

/-- Round 1: the scores of the priors against the mean's direction. -/
theorem stretch3 : after (ops3 (F := Ideal)) W (Proc.devRef .tc main_v17) = logitsV (F := Ideal) (W (Proc.devRef .tc main_v1)) (W (Proc.devRef .tc main_v5)) := by
  after_results
  rfl
theorem keep3 : after (ops3 (F := Ideal)) W (Proc.devRef .tc main_v1) = W (Proc.devRef .tc main_v1) := by
  after_results

/-- Round 1: the shifted exponentials of the scores. -/
theorem stretch4 : after (ops4 (F := Ideal)) W (Proc.devRef .tc main_v24) = expsV (F := Ideal) (W (Proc.devRef .tc main_v17)) := by
  after_results
  rfl
theorem keep4 : after (ops4 (F := Ideal)) W (Proc.devRef .tc main_v1) = W (Proc.devRef .tc main_v1) := by
  after_results

/-- Round 1: the priors averaged with the softmax weights. -/
theorem stretch5 : after (ops5 (F := Ideal)) W (Proc.devRef .tc main_v32) = outV (F := Ideal) (W (Proc.devRef .tc main_v1)) (W (Proc.devRef .tc main_v24)) := by
  after_results
  rfl
theorem keep5 : after (ops5 (F := Ideal)) W (Proc.devRef .tc main_v1) = W (Proc.devRef .tc main_v1) := by
  after_results

/-- Round 2: the scores against round 1's output. -/
theorem stretch6 : after (ops6 (F := Ideal)) W (Proc.devRef .tc main_v44) = logitsV (F := Ideal) (W (Proc.devRef .tc main_v1)) (W (Proc.devRef .tc main_v32)) := by
  after_results
  rfl
theorem keep6 : after (ops6 (F := Ideal)) W (Proc.devRef .tc main_v1) = W (Proc.devRef .tc main_v1) := by
  after_results

/-- Round 2: the shifted exponentials. -/
theorem stretch7 : after (ops7 (F := Ideal)) W (Proc.devRef .tc main_v51) = expsV (F := Ideal) (W (Proc.devRef .tc main_v44)) := by
  after_results
  rfl
theorem keep7 : after (ops7 (F := Ideal)) W (Proc.devRef .tc main_v1) = W (Proc.devRef .tc main_v1) := by
  after_results

/-- Round 2: the weighted average. -/
theorem stretch8 : after (ops8 (F := Ideal)) W (Proc.devRef .tc main_v59) = outV (F := Ideal) (W (Proc.devRef .tc main_v1)) (W (Proc.devRef .tc main_v51)) := by
  after_results
  rfl
theorem keep8 : after (ops8 (F := Ideal)) W (Proc.devRef .tc main_v1) = W (Proc.devRef .tc main_v1) := by
  after_results

/-- Round 3: the scores against round 2's output. -/
theorem stretch9 : after (ops9 (F := Ideal)) W (Proc.devRef .tc main_v71) = logitsV (F := Ideal) (W (Proc.devRef .tc main_v1)) (W (Proc.devRef .tc main_v59)) := by
  after_results
  rfl
theorem keep9 : after (ops9 (F := Ideal)) W (Proc.devRef .tc main_v1) = W (Proc.devRef .tc main_v1) := by
  after_results

/-- Round 3: the shifted exponentials. -/
theorem stretch10 : after (ops10 (F := Ideal)) W (Proc.devRef .tc main_v78) = expsV (F := Ideal) (W (Proc.devRef .tc main_v71)) := by
  after_results
  rfl
theorem keep10 : after (ops10 (F := Ideal)) W (Proc.devRef .tc main_v1) = W (Proc.devRef .tc main_v1) := by
  after_results

/-- Round 3: the weighted average, its kept unit axis reshaped away. -/
theorem stretch11 : after (ops11 (F := Ideal)) W (Proc.devRef .tc main_v87) = shapeCast S32x128x64 (outV (F := Ideal) (W (Proc.devRef .tc main_v1)) (W (Proc.devRef .tc main_v78))) shapeCasts_S32x128x1x64_S32x128x64 := by
  after_results
  rfl

/-! ## The fold -/

/-- The result buffer after all operations: three rounds from the mean over the priors of the two arguments. -/
theorem fold_result (V0 : Valuation τ sig (Elt Ideal)) :
    after (ops (F := Ideal)) V0 (Proc.devRef .tc main_v87)
      = routedV (F := Ideal) (priorsV (F := Ideal) (V0 (Proc.devRef .tc main_arg0)) (V0 (Proc.devRef .tc main_arg1))) := by
  rw [ops_cut]
  simp only [StableHlo.after_append]
  rw [stretch11, stretch10, keep10, stretch9, keep9, stretch8, keep8, stretch7, keep7, stretch6, keep6, stretch5, keep5,
    stretch4, keep4, stretch3, keep3, stretch2, keep2, stretch1]
  rfl

/-! ## The run -/

/-- The reference's run: it terminates with the result at `routedV` of the priors of the two arguments, and the
    arguments unchanged (no operation writes them). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87)
        = routedV (F := Ideal) (priorsV (F := Ideal) (launchContents m c (Proc.devRef .tc main_arg0)) (launchContents m c (Proc.devRef .tc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v87).trans (fold_result _),
      (h c main_arg0).trans (by simp only [ops, StableHlo.after_append]; after_results_simp <;> rfl),
      (h c main_arg1).trans (by simp only [ops, StableHlo.after_append]; after_results_simp <;> rfl)⟩)
    (run_fold m ρ)

end Cert.ReferenceIdeal.Stretches

end
-- ==== Proof.Blocks.lean ====
/-
  From the blocks to the whole array.

  The grid has one point per (batch entry b, tile of sixty-four capsules ot).  The point's input blocks are
  batch entry `b` of the inputs (all its input capsules) and tile `ot` of the weights; its output block is rows
  `ot·64 … ot·64+63` of batch entry `b` of the result.  So if the value the body stores, read at entry (o, j), is
  the route of the priors of the block's capsule `o` — priors formed from the two input blocks — then it is the
  route of the priors of capsule `ot·64 + o` of batch entry `b` formed from the whole arrays: the output block is
  the restriction of ONE whole-array function `routed`.  The sixty-four blocks tile the result, so after the run
  the result array is `routed` of the argument arrays.
-/
import proofs.«180689_j18056042512757_1_alg».proof.Proof.Gen.KernelIdeal.Frame
import proofs.«180689_j18056042512757_1_alg».proof.Proof.Routing
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The priors of batch entry `b`'s capsule `o`: `p i j = ∑ l, x[b, i, l] · w[o, j, l]`. -/
def priors (X : Vec Ideal S32x512x64 .f32) (W : Vec Ideal S128x64x64 .f32) (b : Fin 32) (o : Fin 128)
    (i : Fin 512) (j : Fin 64) : EReal :=
  ∑ l : Fin 64, (X (ix3 b i l) : EReal) * (W (ix3 o j l) : EReal)

/-- The result as ONE function of the argument arrays: entry (b, o, j) is coordinate `j` of the route of
    `priors b o`. -/
def routed (X : Vec Ideal S32x512x64 .f32) (W : Vec Ideal S128x64x64 .f32) : Vec Ideal S32x128x64 .f32 :=
  fun z => Cert.Routing.route (priors X W (z 0) (z 1)) (z 2)

/-- The value the body stores, over its two loaded blocks. -/
abbrev stored (P0 : Vec Ideal S1x512x64 .f32) (P1 : Vec Ideal S64x64x64 .f32) : Vec Ideal S1x64x64 .f32 :=
  k0_pay1 (k0_pay2 P0 P1) (k0_pay5 (k0_pay2 P0 P1) (k0_pay3 P0 P1) (k0_pay4 P0 P1))

/-- What the kernel's arithmetic has to deliver: the stored value at entry (o, j) is the route of the priors
    formed from the two blocks. -/
def StoresRoute : Prop :=
  ∀ (P0 : Vec Ideal S1x512x64 .f32) (P1 : Vec Ideal S64x64x64 .f32) (o j : Fin 64),
    stored P0 P1 (ix3 0 o j)
      = Cert.Routing.route (fun (i : Fin 512) (j' : Fin 64) =>
          ∑ l : Fin 64, (P0 (ix3 0 i l) : EReal) * (P1 (ix3 o j' l) : EReal)) j

/-- A block whose inputs are batch entry `b` and weight tile `ot` stores the rows `ot·64 + ·` of batch entry `b`
    of `routed`. -/
theorem stored_eq_routed (hK : StoresRoute)
    (x0 : Vec Ideal S1x512x64 .f32) (x1 : Vec Ideal S64x64x64 .f32)
    (X : Vec Ideal S32x512x64 .f32) (W : Vec Ideal S128x64x64 .f32)
    (b ot : ℕ) (hb : b < 32) (hot : ot < 2)
    (h0 : ∀ (i : Fin 512) (l : Fin 64), x0 (ix3 0 i l) = X (ix3 ⟨b, hb⟩ i l))
    (h1 : ∀ (o j l : Fin 64), x1 (ix3 o j l) = W (ix3 ⟨ot * 64 + o.val, by have := o.isLt; show ot * 64 + o.val < 128; omega⟩ j l))
    (y : S1x64x64.Idx) (z : S32x128x64.Idx)
    (hz0 : (z 0).val = b) (hz1 : (z 1).val = ot * 64 + (y 1).val) (hz2 : (z 2).val = (y 2).val) :
    stored x0 x1 y = routed X W z := by
  obtain ⟨o, j, rfl⟩ : ∃ o j : Fin 64, y = ix3 0 o j :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have ez0 : z 0 = ⟨b, hb⟩ := Fin.ext hz0
  have ez1 : z 1 = ⟨ot * 64 + o.val, by have := o.isLt; show ot * 64 + o.val < 128; omega⟩ := Fin.ext hz1
  have ez2 : z 2 = j := Fin.ext hz2
  rw [hK x0 x1 o j]
  unfold routed
  rw [ez0, ez1, ez2]
  congr 1
  funext i j'
  unfold priors
  exact Finset.sum_congr rfl fun l _ => congrArg₂ (· * ·) (h0 i l) (h1 o j' l)

variable (m : (ℓ : Loc nD τ sig) → Buf (Elt Ideal) ℓ) (ρ : Dev nD → PrngReg)

theorem zero3 : (![0, 0, 0] : Fin 3 → Nat) = fun _ => 0 := funext fun a => by fin_cases a <;> rfl

/-- The three index maps over the grid: the inputs' block follows the output block's batch coordinate, the
    weights' block its tile coordinate; every other block coordinate is zero. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (1 : Fin 3) ∧ win0_1.index t (1 : Fin 3) = 0 ∧ win0_1.index t (2 : Fin 3) = 0
    ∧ win0_2.index t (0 : Fin 3) ≤ 31 ∧ win0_2.index t (1 : Fin 3) ≤ 1 ∧ win0_2.index t (2 : Fin 3) = 0 :=
  (by decide +kernel : ∀ t : Fin grid0.N, _)

/-- Every (batch entry, tile) pair is some point's output block. -/
theorem index_onto : ∀ (q0 : Fin 32) (q1 : Fin 2), ∃ t : Fin cfg0.N, win0_2.index t = ![q0.val, q1.val, 0] :=
  (by decide +kernel : ∀ (q0 : Fin 32) (q1 : Fin 2), ∃ t : Fin grid0.N, win0_2.index t = ![q0.val, q1.val, 0])

/-- What point `t` writes back is its block of `routed` of the argument arrays. -/
theorem flushed_eq (hK : StoresRoute) (c : Dev nD) (t : Fin cfg0.N) :
    (dats m 0 c).flushed 2 t
      = ((cfg0.win 2).blk t).view.read (Elt Ideal) (routed (V m c main_arg0) (V m c main_arg1)) := by
  show (cfg0.win 2).cut (grid0.coords t) ((dats m 0 c).after 2 t) = _
  rw [after0_2]
  unfold out0_2
  rw [View.canon_unit_zero zero3]
  simp only [View.ld_unit_zero (S := S1x512x64) zero3, View.ld_unit_zero (S := S64x64x64) zero3]
  obtain ⟨e0, e1, e2, e3, e4, e5, e6, e7, e8⟩ := index_facts t
  funext y
  show stored (iblk m c 0 t) (iblk m c 1 t) y
    = routed (V m c main_arg0) (V m c main_arg1) (((cfg0.win 2).blk t).view.emb y)
  refine stored_eq_routed hK _ _ _ _ (win0_2.index t (0 : Fin 3)) (win0_2.index t (1 : Fin 3)) (by omega) (by omega)
    ?_ ?_ y _ ?_ ?_ ?_
  · intro i l
    show V m c main_arg0 (((cfg0.win 0).blk t).view.emb (ix3 0 i l)) = V m c main_arg0 (ix3 ⟨_, _⟩ i l)
    congr 1; funext a; apply Fin.ext
    match a with
    | ⟨0, _⟩ => show win0_0.index t (0 : Fin 3) * 1 + 1 * 0 = win0_2.index t (0 : Fin 3); omega
    | ⟨1, _⟩ => show win0_0.index t (1 : Fin 3) * 512 + 1 * i.val = i.val; omega
    | ⟨2, _⟩ => show win0_0.index t (2 : Fin 3) * 64 + 1 * l.val = l.val; omega
  · intro o j l
    show V m c main_arg1 (((cfg0.win 1).blk t).view.emb (ix3 o j l)) = V m c main_arg1 (ix3 ⟨_, _⟩ j l)
    congr 1; funext a; apply Fin.ext
    match a with
    | ⟨0, _⟩ => show win0_1.index t (0 : Fin 3) * 64 + 1 * o.val = win0_2.index t (1 : Fin 3) * 64 + o.val; omega
    | ⟨1, _⟩ => show win0_1.index t (1 : Fin 3) * 64 + 1 * j.val = j.val; omega
    | ⟨2, _⟩ => show win0_1.index t (2 : Fin 3) * 64 + 1 * l.val = l.val; omega
  · show win0_2.index t (0 : Fin 3) * 1 + 1 * (y 0).val = win0_2.index t (0 : Fin 3)
    have h : (y 0).val < 1 := (y 0).isLt
    omega
  · show win0_2.index t (1 : Fin 3) * 64 + 1 * (y 1).val = win0_2.index t (1 : Fin 3) * 64 + (y 1).val
    omega
  · show win0_2.index t (2 : Fin 3) * 64 + 1 * (y 2).val = (y 2).val
    omega

/-- An index of the result lies in point `t`'s block iff each coordinate lies in the block's range on its axis. -/
theorem mem_block (t : Fin cfg0.N) (i : S32x128x64.Idx) :
    i ∈ ((cfg0.win 2).blk t).view.set
      ↔ ∀ a : Fin 3, win0_2.index t a * S1x64x64.size a ≤ (i a).val
          ∧ (i a).val < win0_2.index t a * S1x64x64.size a + S1x64x64.size a := by
  show i ∈ ((View.whole main_v0).slice (win0_2.rect t)).set ↔ _
  rw [View.set_slice_whole, Rect.mem_set_unit]
  exact Iff.rfl

/-- The blocks tile the result: entry (b, r, j) lies in the block of batch entry `b` and tile `r / 64`. -/
theorem covered (i : S32x128x64.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 64 := (i 2).isLt
  obtain ⟨t, ht⟩ := index_onto ⟨(i 0).val, hi0⟩ ⟨(i 1).val / 64, by omega⟩
  have q0 : win0_2.index t (0 : Fin 3) = (i 0).val := congrFun ht 0
  have q1 : win0_2.index t (1 : Fin 3) = (i 1).val / 64 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 64 ≤ (i 2).val ∧ (i 2).val < win0_2.index t (2 : Fin 3) * 64 + 64; omega

/-- The result array after the run is `routed` of the argument arrays. -/
theorem final (hK : StoresRoute) (c : Dev nD) :
    (dats m 0 c).arrAt 2 cfg0.N
      = routed (m ((c : Thread nD τ).loc main_arg0)) (m ((c : Thread nD τ).loc main_arg1)) :=
  (dats m 0 c).arrAt_eq_of_cover 2 (routed (V m c main_arg0) (V m c main_arg1))
    (fun t _ => flushed_eq m hK c t) covered

/-- The kernel's run: it terminates with the result at `routed` of the arguments and the arguments unchanged. -/
theorem run (hK : StoresRoute) :
    θ_run defs (onTc (τ := τ) (main (F := Ideal))) ⟨m, fun _ => 0, ρ⟩ fun r => ∀ c : Dev nD,
      r.2.mem ((c : Thread nD τ).loc main_v0)
        = routed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hK c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.KernelRound.lean ====
/-
  The idealized kernel's stored value, read at an index, is three routing rounds from the mean.

  At a grid point the body holds one batch entry's inputs `P0` (input capsule × input coordinate) and one tile of
  sixty-four output capsules' weights `P1` (capsule × output coordinate × input coordinate).  Its priors are the
  matrix product of the flattened weights with the transposed inputs, laid out capsule × output coordinate × input
  capsule; every later reduction runs over one axis of that layout.  Read entry by entry, the value it stores is
  `Routing.route` of the priors table of the entry's capsule.
-/
import proofs.«180689_j18056042512757_1_alg».proof.Proof.Gen.KernelIdeal.Skeleton
import proofs.«180689_j18056042512757_1_alg».proof.Proof.Routing
import Idealize.ShloMosaic.Lib.ValueIdx
import Idealize.ShloMosaic.Lib.Pipeline.Value
import Idealize.ShloMosaic.PureOps.Ideal.Laws

noncomputable section

namespace Cert.KernelIdeal.RouteK

open Idealize.ShloMosaic Idealize.ShloMosaic.ValueIdx Cert.KernelIdeal Cert.KernelIdeal.Gen

/-! ## The round as vector operations

The kernel's routing round as vector operations, and each of them read at an index.

The block body works on the priors laid out capsule × output coordinate × input capsule (`P`, 64 × 64 × 512) and on
the current output vectors laid out capsule × output coordinate × 1 (`u`).  The definitions below name the pieces of
one round exactly as the body composes them — the floored length, the direction, the scores, their maximum, the
shifted exponentials, the softmax weights, the weighted sum — for any float instance.  At the extended reals each
piece, read at the entry of capsule `o`, is the corresponding function of `Routing` applied to the tables
`p i j = P[o, j, i]` and `u j = u[o, j, 0]`: every reduction runs over one axis and is the `Fin`-indexed sum (or
fold of `max`) over that axis's coordinate, every shape cast and broadcast re-reads the same entry.
-/

section Generic
variable {F : FTy → Type} [FloatOps F]

/-- The mean of the priors over the input capsules (the last axis), kept as a 64 × 64 × 1 vector. -/
def meanV (P : FVec F S64x64x512 .f32) : FVec F S64x64x1 .f32 :=
  divf (shapeCast S64x64x1 (multiReduction .add [2] S64x64 P 0x00000000#32 reduces_S64x64x512_S64x64 (.inl rfl) rfl) shapeCasts_S64x64_S64x64x1)
    (broadcast S64x64x1 (Scalar.ofBits .f32 0x44000000#32))

/-- The floored Euclidean length of each capsule's output vector: 64 × 1 × 1. -/
def lenV (u : FVec F S64x64x1 .f32) : FVec F S64x1x1 .f32 :=
  maximumf (sqrt (shapeCast S64x1x1 (multiReduction .add [1] S64x1 (mulf u u) 0x00000000#32 reduces_S64x64x1_S64x1 (.inl rfl) rfl) shapeCasts_S64x1_S64x1x1))
    (broadcast S64x1x1 (Scalar.ofBits .f32 0x2B8CBCCC#32))

/-- Each output vector divided by its floored length. -/
def dirV (u : FVec F S64x64x1 .f32) : FVec F S64x64x1 .f32 :=
  divf u (broadcastTo S64x64x1 (lenV u) broadcasts_S64x1x1_S64x64x1)

/-- The scores: each prior's inner product (over the output coordinate, the middle axis) with the direction. -/
def logitV (P : FVec F S64x64x512 .f32) (u : FVec F S64x64x1 .f32) : FVec F S64x1x512 .f32 :=
  shapeCast S64x1x512 (multiReduction .add [1] S64x512 (mulf P (broadcastTo S64x64x512 (dirV u) broadcasts_S64x64x1_S64x64x512)) 0x00000000#32 reduces_S64x64x512_S64x512 (.inl rfl) rfl) shapeCasts_S64x512_S64x1x512

/-- The largest score of each capsule, taken from −∞ (and once more against −∞). -/
def topV (lg : FVec F S64x1x512 .f32) : FVec F S64x1x1 .f32 :=
  shapeCast S64x1x1 (maximumf (broadcast S64x1 (Scalar.ofBits .f32 0xFF800000#32)) (multiReduction .maximumf [2] S64x1 lg 0xFF800000#32 reduces_S64x1x512_S64x1 (.inl rfl) rfl)) shapeCasts_S64x1_S64x1x1

/-- The shifted exponentials of the scores. -/
def wexpV (lg : FVec F S64x1x512 .f32) : FVec F S64x1x512 .f32 :=
  exp (subf lg (broadcastTo S64x1x512 (topV lg) broadcasts_S64x1x1_S64x1x512))

/-- The softmax weights over the input capsules. -/
def coefV (lg : FVec F S64x1x512 .f32) : FVec F S64x1x512 .f32 :=
  divf (wexpV lg) (broadcastTo S64x1x512 (shapeCast S64x1x1 (multiReduction .add [2] S64x1 (wexpV lg) 0x00000000#32 reduces_S64x1x512_S64x1 (.inl rfl) rfl) shapeCasts_S64x1_S64x1x1) broadcasts_S64x1x1_S64x1x512)

/-- One round's weighted sum of the priors over the input capsules: 64 × 64. -/
def stepSum (P : FVec F S64x64x512 .f32) (u : FVec F S64x64x1 .f32) : FVec F S64x64 .f32 :=
  multiReduction .add [2] S64x64 (mulf (broadcastTo S64x64x512 (coefV (logitV P u)) broadcasts_S64x1x512_S64x64x512) P) 0x00000000#32 reduces_S64x64x512_S64x64 (.inl rfl) rfl

/-- One round, back in the layout of the output vectors. -/
def stepV (P : FVec F S64x64x512 .f32) (u : FVec F S64x64x1 .f32) : FVec F S64x64x1 .f32 :=
  shapeCast S64x64x1 (stepSum P u) shapeCasts_S64x64_S64x64x1

/-- The body's first payload after the priors is the mean followed by one round. -/
theorem pay3_eq (P0 : Vec F S1x512x64 .f32) (P1 : Vec F S64x64x64 .f32) :
    k0_pay3 P0 P1 = stepV (k0_pay2 P0 P1) (meanV (k0_pay2 P0 P1)) := rfl

/-- The next payload is the squared length of the first round's output vectors, before the square root. -/
theorem pay4_eq (P0 : Vec F S1x512x64 .f32) (P1 : Vec F S64x64x64 .f32) :
    k0_pay4 P0 P1 = multiReduction .add [1] S64x1 (mulf (k0_pay3 P0 P1) (k0_pay3 P0 P1)) 0x00000000#32 reduces_S64x64x1_S64x1 (.inl rfl) rfl := rfl

/-- From an output vector and its squared length the body runs one whole round and the next one up to its softmax weights. -/
theorem pay5_eq (P : FVec F S64x64x512 .f32) (u : FVec F S64x64x1 .f32) :
    k0_pay5 P u (multiReduction .add [1] S64x1 (mulf u u) 0x00000000#32 reduces_S64x64x1_S64x1 (.inl rfl) rfl)
      = coefV (logitV P (stepV P u)) := rfl

/-- The stored value: the weighted sum of the priors under given weights, passed through three shape casts. -/
theorem pay1_eq (P : FVec F S64x64x512 .f32) (w : FVec F S64x1x512 .f32) :
    k0_pay1 P w = shapeCast S1x64x64 (shapeCast S64x64 (shapeCast S64x64x1
      (multiReduction .add [2] S64x64 (mulf (broadcastTo S64x64x512 w broadcasts_S64x1x512_S64x64x512) P) 0x00000000#32 reduces_S64x64x512_S64x64 (.inl rfl) rfl)
      shapeCasts_S64x64_S64x64x1) shapeCasts_S64x64x1_S64x64) shapeCasts_S64x64_S1x64x64 := rfl

/-- So the stored block is three rounds from the mean, re-laid as 1 × 64 × 64. -/
theorem block_eq (P0 : Vec F S1x512x64 .f32) (P1 : Vec F S64x64x64 .f32) :
    k0_pay1 (k0_pay2 P0 P1) (k0_pay5 (k0_pay2 P0 P1) (k0_pay3 P0 P1) (k0_pay4 P0 P1))
      = shapeCast S1x64x64 (shapeCast S64x64
          (stepV (k0_pay2 P0 P1) (stepV (k0_pay2 P0 P1) (stepV (k0_pay2 P0 P1) (meanV (k0_pay2 P0 P1)))))
          shapeCasts_S64x64x1_S64x64) shapeCasts_S64x64_S1x64x64 := by
  rw [pay4_eq, pay5_eq, pay1_eq, pay3_eq]
  rfl

end Generic

/-! ## The reductions, shape casts and broadcasts of a round, read at an index -/

section AtIdeal

/-- The sum over the input capsules (last axis) of a 64 × 64 × 512 vector. -/
theorem sumLast_apply (x : FVec Ideal S64x64x512 .f32) (o j : Fin 64) :
    multiReduction .add [2] S64x64 x 0x00000000#32 reduces_S64x64x512_S64x64 (.inl rfl) rfl (ix2 o j)
      = ∑ i : Fin 512, x (ix3 o j i) := by
  refine (Ideal.multiReduction_add_single x _ reduces_S64x64x512_S64x64 _ _ (ix2 o j)).trans ?_
  refine Finset.sum_congr rfl fun i _ => congrArg x ?_
  funext a; apply Fin.ext
  match a with | ⟨0, _⟩ => rfl | ⟨1, _⟩ => rfl | ⟨2, _⟩ => rfl

/-- The sum over the output coordinate (middle axis) of a 64 × 64 × 512 vector. -/
theorem sumMid_apply (x : FVec Ideal S64x64x512 .f32) (o : Fin 64) (i : Fin 512) :
    multiReduction .add [1] S64x512 x 0x00000000#32 reduces_S64x64x512_S64x512 (.inl rfl) rfl (ix2 o i)
      = ∑ j : Fin 64, x (ix3 o j i) := by
  refine (Ideal.multiReduction_add_single x _ reduces_S64x64x512_S64x512 _ _ (ix2 o i)).trans ?_
  refine Finset.sum_congr rfl fun j _ => congrArg x ?_
  funext a; apply Fin.ext
  match a with | ⟨0, _⟩ => rfl | ⟨1, _⟩ => rfl | ⟨2, _⟩ => rfl

/-- The sum over the output coordinate of a 64 × 64 × 1 vector. -/
theorem sumVec_apply (x : FVec Ideal S64x64x1 .f32) (o : Fin 64) :
    multiReduction .add [1] S64x1 x 0x00000000#32 reduces_S64x64x1_S64x1 (.inl rfl) rfl (ix2 o (0 : Fin 1))
      = ∑ j : Fin 64, x (ix3 o j (0 : Fin 1)) := by
  refine (Ideal.multiReduction_add_single x _ reduces_S64x64x1_S64x1 _ _ (ix2 o (0 : Fin 1))).trans ?_
  refine Finset.sum_congr rfl fun j _ => congrArg x ?_
  funext a; apply Fin.ext
  match a with | ⟨0, _⟩ => rfl | ⟨1, _⟩ => rfl | ⟨2, _⟩ => rfl

/-- The sum over the input capsules of a 64 × 1 × 512 vector. -/
theorem sumRow_apply (x : FVec Ideal S64x1x512 .f32) (o : Fin 64) :
    multiReduction .add [2] S64x1 x 0x00000000#32 reduces_S64x1x512_S64x1 (.inl rfl) rfl (ix2 o (0 : Fin 1))
      = ∑ i : Fin 512, x (ix3 o (0 : Fin 1) i) := by
  refine (Ideal.multiReduction_add_single x _ reduces_S64x1x512_S64x1 _ _ (ix2 o (0 : Fin 1))).trans ?_
  refine Finset.sum_congr rfl fun i _ => congrArg x ?_
  funext a; apply Fin.ext
  match a with | ⟨0, _⟩ => rfl | ⟨1, _⟩ => rfl | ⟨2, _⟩ => rfl

/-- The maximum over the input capsules of a 64 × 1 × 512 vector, folded from −∞. -/
theorem maxRow_apply (x : FVec Ideal S64x1x512 .f32) (o : Fin 64) :
    multiReduction .maximumf [2] S64x1 x 0xFF800000#32 reduces_S64x1x512_S64x1 (.inl rfl) rfl (ix2 o (0 : Fin 1))
      = (Finset.univ : Finset (Fin 512)).fold max (Ideal.ofBits .f32 0xFF800000#32) (fun i => x (ix3 o (0 : Fin 1) i)) := by
  refine (Ideal.multiReduction_maximumf_single x _ reduces_S64x1x512_S64x1 _ _ (ix2 o (0 : Fin 1))).trans ?_
  refine congrArg (fun f => (Finset.univ : Finset (Fin 512)).fold max (Ideal.ofBits .f32 0xFF800000#32) f) ?_
  funext i
  refine congrArg x ?_
  funext a; apply Fin.ext
  match a with | ⟨0, _⟩ => rfl | ⟨1, _⟩ => rfl | ⟨2, _⟩ => rfl

end AtIdeal

/-! ### Shape casts and broadcasts (any element type) -/

section Layout
variable {α : Type}

theorem cast_mat_apply (x : S64x64.Idx → α) (o j : Fin 64) :
    shapeCast S64x64x1 x shapeCasts_S64x64_S64x64x1 (ix3 o j (0 : Fin 1)) = x (ix2 o j) := by
  refine shapeCast_apply x _ _ (ix2 o j) ?_
  rw [Shape.rowMajor_val_two, Shape.rowMajor_val_three]
  show o.val * 64 + j.val = (o.val * 64 + j.val) * 1 + 0
  omega

theorem cast_col_apply (x : S64x1.Idx → α) (o : Fin 64) :
    shapeCast S64x1x1 x shapeCasts_S64x1_S64x1x1 (ix3 o (0 : Fin 1) (0 : Fin 1)) = x (ix2 o (0 : Fin 1)) := by
  refine shapeCast_apply x _ _ (ix2 o (0 : Fin 1)) ?_
  rw [Shape.rowMajor_val_two, Shape.rowMajor_val_three]
  show o.val * 1 + 0 = (o.val * 1 + 0) * 1 + 0
  omega

theorem cast_row_apply (x : S64x512.Idx → α) (o : Fin 64) (i : Fin 512) :
    shapeCast S64x1x512 x shapeCasts_S64x512_S64x1x512 (ix3 o (0 : Fin 1) i) = x (ix2 o i) := by
  refine shapeCast_apply x _ _ (ix2 o i) ?_
  rw [Shape.rowMajor_val_two, Shape.rowMajor_val_three]
  show o.val * 512 + i.val = (o.val * 1 + 0) * 512 + i.val
  omega

theorem cast_back_apply (x : S64x64x1.Idx → α) (o j : Fin 64) :
    shapeCast S64x64 x shapeCasts_S64x64x1_S64x64 (ix2 o j) = x (ix3 o j (0 : Fin 1)) := by
  refine shapeCast_apply x _ _ (ix3 o j (0 : Fin 1)) ?_
  rw [Shape.rowMajor_val_two, Shape.rowMajor_val_three]
  show (o.val * 64 + j.val) * 1 + 0 = o.val * 64 + j.val
  omega

theorem cast_block_apply (x : S64x64.Idx → α) (o j : Fin 64) :
    shapeCast S1x64x64 x shapeCasts_S64x64_S1x64x64 (ix3 (0 : Fin 1) o j) = x (ix2 o j) := by
  refine shapeCast_apply x _ _ (ix2 o j) ?_
  rw [Shape.rowMajor_val_two, Shape.rowMajor_val_three]
  show o.val * 64 + j.val = (0 * 64 + o.val) * 64 + j.val
  omega

/-- A per-capsule scalar spread over the output coordinates. -/
theorem bc_len_apply (x : S64x1x1.Idx → α) (o j : Fin 64) :
    broadcastTo S64x64x1 x broadcasts_S64x1x1_S64x64x1 (ix3 o j (0 : Fin 1)) = x (ix3 o (0 : Fin 1) (0 : Fin 1)) := by
  refine broadcastTo_apply x _ _ _ fun a => ?_
  match a with | ⟨0, _⟩ => rfl | ⟨1, _⟩ => rfl | ⟨2, _⟩ => rfl

/-- An output vector spread over the input capsules. -/
theorem bc_dir_apply (x : S64x64x1.Idx → α) (o j : Fin 64) (i : Fin 512) :
    broadcastTo S64x64x512 x broadcasts_S64x64x1_S64x64x512 (ix3 o j i) = x (ix3 o j (0 : Fin 1)) := by
  refine broadcastTo_apply x _ _ _ fun a => ?_
  match a with | ⟨0, _⟩ => rfl | ⟨1, _⟩ => rfl | ⟨2, _⟩ => rfl

/-- A per-capsule scalar spread over the input capsules. -/
theorem bc_top_apply (x : S64x1x1.Idx → α) (o : Fin 64) (i : Fin 512) :
    broadcastTo S64x1x512 x broadcasts_S64x1x1_S64x1x512 (ix3 o (0 : Fin 1) i) = x (ix3 o (0 : Fin 1) (0 : Fin 1)) := by
  refine broadcastTo_apply x _ _ _ fun a => ?_
  match a with | ⟨0, _⟩ => rfl | ⟨1, _⟩ => rfl | ⟨2, _⟩ => rfl

/-- The weights of the input capsules spread over the output coordinates. -/
theorem bc_coef_apply (x : S64x1x512.Idx → α) (o j : Fin 64) (i : Fin 512) :
    broadcastTo S64x64x512 x broadcasts_S64x1x512_S64x64x512 (ix3 o j i) = x (ix3 o (0 : Fin 1) i) := by
  refine broadcastTo_apply x _ _ _ fun a => ?_
  match a with | ⟨0, _⟩ => rfl | ⟨1, _⟩ => rfl | ⟨2, _⟩ => rfl

end Layout

/-! ## The priors

The kernel's priors, read at an index.

The body flattens the tile of weights to 4096 × 64 (row `o·64 + j` is output coordinate `j` of capsule `o`), drops the
leading unit axis of the inputs (512 × 64), multiplies the first by the transpose of the second — both contracted over
their last axis, the input coordinate — into a zero accumulator, and views the 4096 × 512 product as 64 × 64 × 512.
Entry `(o, j, i)` is therefore `∑ l, P1[o, j, l] · P0[0, i, l]`; the narrowing of the operands is the identity on
the extended reals.
-/

/-- The flattened row of capsule `o`, output coordinate `j`. -/
abbrev rowOf (o j : Fin 64) : Fin 4096 := ⟨o.val * 64 + j.val, by have := o.isLt; have := j.isLt; omega⟩

/-- The product's left operand index at row `r`, contraction coordinate `l`. -/
theorem dot_lhsIdx (r : Fin 4096) (i : Fin 512) (l : Fin 64) :
    dot_S4096x64_S512x64_S4096x512_1_1_0_0_n_n.lhsIdx (ix2 r i)
      ((contrEquiv1 dot_S4096x64_S512x64_S4096x512_1_1_0_0_n_n 64 rfl rfl).symm l) = ix2 r l := by
  have c := contrEquiv1_symm_val dot_S4096x64_S512x64_S4096x512_1_1_0_0_n_n 64 rfl rfl l
  funext ax; apply Fin.ext
  match ax with
  | ⟨0, _⟩ => simp [DotDims.lhsIdx, dot_S4096x64_S512x64_S4096x512_1_1_0_0_n_n]; rfl
  | ⟨1, _⟩ => simp [DotDims.lhsIdx, dot_S4096x64_S512x64_S4096x512_1_1_0_0_n_n]; exact c

/-- The product's right operand index at column `i`, contraction coordinate `l`. -/
theorem dot_rhsIdx (r : Fin 4096) (i : Fin 512) (l : Fin 64) :
    dot_S4096x64_S512x64_S4096x512_1_1_0_0_n_n.rhsIdx (ix2 r i)
      ((contrEquiv1 dot_S4096x64_S512x64_S4096x512_1_1_0_0_n_n 64 rfl rfl).symm l) = ix2 i l := by
  have c := contrEquiv1_symm_val dot_S4096x64_S512x64_S4096x512_1_1_0_0_n_n 64 rfl rfl l
  funext ax; apply Fin.ext
  match ax with
  | ⟨0, _⟩ => simp [DotDims.rhsIdx, dot_S4096x64_S512x64_S4096x512_1_1_0_0_n_n]; rfl
  | ⟨1, _⟩ => simp [DotDims.rhsIdx, dot_S4096x64_S512x64_S4096x512_1_1_0_0_n_n]; exact c

/-- The flattened weights at row `o·64 + j`. -/
theorem cast_weights_apply {α : Type} (x : S64x64x64.Idx → α) (o j l : Fin 64) :
    shapeCast S4096x64 x shapeCasts_S64x64x64_S4096x64 (ix2 (rowOf o j) l) = x (ix3 o j l) := by
  refine shapeCast_apply x _ _ (ix3 o j l) ?_
  rw [Shape.rowMajor_val_two, Shape.rowMajor_val_three]
  show (o.val * 64 + j.val) * 64 + l.val = (o.val * 64 + j.val) * 64 + l.val
  rfl

/-- The inputs without their leading unit axis. -/
theorem cast_inputs_apply {α : Type} (x : S1x512x64.Idx → α) (i : Fin 512) (l : Fin 64) :
    shapeCast S512x64 x shapeCasts_S1x512x64_S512x64 (ix2 i l) = x (ix3 (0 : Fin 1) i l) := by
  refine shapeCast_apply x _ _ (ix3 (0 : Fin 1) i l) ?_
  rw [Shape.rowMajor_val_two, Shape.rowMajor_val_three]
  show (0 * 512 + i.val) * 64 + l.val = i.val * 64 + l.val
  omega

/-- The product viewed capsule × output coordinate × input capsule. -/
theorem cast_prod_apply {α : Type} (x : S4096x512.Idx → α) (o j : Fin 64) (i : Fin 512) :
    shapeCast S64x64x512 x shapeCasts_S4096x512_S64x64x512 (ix3 o j i) = x (ix2 (rowOf o j) i) := by
  refine shapeCast_apply x _ _ (ix2 (rowOf o j) i) ?_
  rw [Shape.rowMajor_val_two, Shape.rowMajor_val_three]
  show (o.val * 64 + j.val) * 512 + i.val = (o.val * 64 + j.val) * 512 + i.val
  rfl

/-- THE PRIORS: entry `(o, j, i)` is the inner product of input capsule `i` with row `j` of capsule `o`'s weights. -/
theorem priors_apply (P0 : Vec Ideal S1x512x64 .f32) (P1 : Vec Ideal S64x64x64 .f32) (o j : Fin 64) (i : Fin 512) :
    k0_pay2 P0 P1 (ix3 o j i) = ∑ l : Fin 64, (P0 (ix3 (0 : Fin 1) i l) : EReal) * (P1 (ix3 o j l) : EReal) := by
  show shapeCast S64x64x512 (matmul dot_S4096x64_S512x64_S4096x512_1_1_0_0_n_n none
      (truncf .bf16 (shapeCast S4096x64 P1 shapeCasts_S64x64x64_S4096x64) bitsLt_bf16_f32)
      (truncf .bf16 (shapeCast S512x64 P0 shapeCasts_S1x512x64_S512x64) bitsLt_bf16_f32)
      (constant (F := Ideal) S4096x512 .f32 0x00000000#32)) shapeCasts_S4096x512_S64x64x512 (ix3 o j i) = _
  refine (cast_prod_apply _ o j i).trans ?_
  refine (Ideal.matmul_constant_zero_apply dot_S4096x64_S512x64_S4096x512_1_1_0_0_n_n none
    (truncf .bf16 (shapeCast S4096x64 P1 shapeCasts_S64x64x64_S4096x64) bitsLt_bf16_f32)
    (truncf .bf16 (shapeCast S512x64 P0 shapeCasts_S1x512x64_S512x64) bitsLt_bf16_f32) (ix2 (rowOf o j) i)).trans ?_
  rw [← Equiv.sum_comp (contrEquiv1 dot_S4096x64_S512x64_S4096x512_1_1_0_0_n_n 64 rfl rfl).symm]
  refine Finset.sum_congr rfl fun l _ => ?_
  rw [dot_lhsIdx, dot_rhsIdx]
  show shapeCast S4096x64 P1 shapeCasts_S64x64x64_S4096x64 (ix2 (rowOf o j) l)
      * shapeCast S512x64 P0 shapeCasts_S1x512x64_S512x64 (ix2 i l) = _
  rw [cast_weights_apply, cast_inputs_apply]
  exact mul_comm _ _

/-! ## One round is `Routing.step`

One routing round of the kernel, read at the entry of one capsule, is `Routing.step`.

Fix a capsule `o` of the tile.  Its priors table is `p i j = P[o, j, i]`, its current output vector
`u j = u[o, j, 0]`, its row of scores `l i = lg[o, 0, i]`.  Each vector piece of the round, read at an entry of
capsule `o`, is the piece of `Routing` of the same name applied to these tables.
-/

/-- Capsule `o`'s priors as a table input capsule × output coordinate. -/
def tab (P : FVec Ideal S64x64x512 .f32) (o : Fin 64) : Fin 512 → Fin 64 → EReal := fun i j => P (ix3 o j i)
/-- Capsule `o`'s output vector. -/
def vec (u : FVec Ideal S64x64x1 .f32) (o : Fin 64) : Fin 64 → EReal := fun j => u (ix3 o j (0 : Fin 1))
/-- Capsule `o`'s row of a per-input-capsule quantity. -/
def row (lg : FVec Ideal S64x1x512 .f32) (o : Fin 64) : Fin 512 → EReal := fun i => lg (ix3 o (0 : Fin 1) i)

variable (P : FVec Ideal S64x64x512 .f32) (u : FVec Ideal S64x64x1 .f32) (lg : FVec Ideal S64x1x512 .f32) (o : Fin 64)

theorem meanV_apply (j : Fin 64) : meanV P (ix3 o j (0 : Fin 1)) = Routing.mean (tab P o) j := by
  show Ideal.div (shapeCast S64x64x1 (multiReduction .add [2] S64x64 P 0x00000000#32 reduces_S64x64x512_S64x64 (.inl rfl) rfl)
      shapeCasts_S64x64_S64x64x1 (ix3 o j (0 : Fin 1))) (Ideal.ofBits .f32 0x44000000#32)
    = Ideal.div (∑ i : Fin 512, P (ix3 o j i)) (Ideal.ofBits .f32 Routing.cntW)
  rw [cast_mat_apply, sumLast_apply]

theorem lenV_apply : lenV u (ix3 o (0 : Fin 1) (0 : Fin 1)) = Routing.len (vec u o) := by
  show max (Ideal.sqrt (shapeCast S64x1x1 (multiReduction .add [1] S64x1 (mulf u u) 0x00000000#32 reduces_S64x64x1_S64x1 (.inl rfl) rfl)
      shapeCasts_S64x1_S64x1x1 (ix3 o (0 : Fin 1) (0 : Fin 1)))) (Ideal.ofBits .f32 0x2B8CBCCC#32)
    = max (Ideal.sqrt (∑ j : Fin 64, u (ix3 o j (0 : Fin 1)) * u (ix3 o j (0 : Fin 1)))) (Ideal.ofBits .f32 Routing.epsW)
  rw [cast_col_apply, sumVec_apply]
  rfl

theorem dirV_apply (j : Fin 64) : dirV u (ix3 o j (0 : Fin 1)) = Routing.dir (vec u o) j := by
  show Ideal.div (u (ix3 o j (0 : Fin 1))) (broadcastTo S64x64x1 (lenV u) broadcasts_S64x1x1_S64x64x1 (ix3 o j (0 : Fin 1)))
    = Ideal.div (u (ix3 o j (0 : Fin 1))) (Routing.len (vec u o))
  rw [bc_len_apply, lenV_apply]

theorem logitV_apply (i : Fin 512) : logitV P u (ix3 o (0 : Fin 1) i) = Routing.logit (tab P o) (vec u o) i := by
  unfold logitV
  rw [cast_row_apply, sumMid_apply]
  refine Finset.sum_congr rfl fun j _ => ?_
  show P (ix3 o j i) * broadcastTo S64x64x512 (dirV u) broadcasts_S64x64x1_S64x64x512 (ix3 o j i)
    = P (ix3 o j i) * Routing.dir (vec u o) j
  rw [bc_dir_apply, dirV_apply]

theorem topV_apply : topV lg (ix3 o (0 : Fin 1) (0 : Fin 1)) = Routing.top (row lg o) := by
  unfold topV
  rw [cast_col_apply]
  show max (Ideal.ofBits .f32 0xFF800000#32)
      (multiReduction .maximumf [2] S64x1 lg 0xFF800000#32 reduces_S64x1x512_S64x1 (.inl rfl) rfl (ix2 o (0 : Fin 1))) = _
  rw [maxRow_apply]
  rfl

theorem wexpV_apply (i : Fin 512) : wexpV lg (ix3 o (0 : Fin 1) i) = Routing.wexp (row lg o) i := by
  show Ideal.exp (lg (ix3 o (0 : Fin 1) i) - broadcastTo S64x1x512 (topV lg) broadcasts_S64x1x1_S64x1x512 (ix3 o (0 : Fin 1) i))
    = Ideal.exp (lg (ix3 o (0 : Fin 1) i) - Routing.top (row lg o))
  rw [bc_top_apply, topV_apply]

theorem coefV_apply (i : Fin 512) : coefV lg (ix3 o (0 : Fin 1) i) = Routing.coef (row lg o) i := by
  show Ideal.div (wexpV lg (ix3 o (0 : Fin 1) i))
      (broadcastTo S64x1x512 (shapeCast S64x1x1 (multiReduction .add [2] S64x1 (wexpV lg) 0x00000000#32 reduces_S64x1x512_S64x1 (.inl rfl) rfl)
        shapeCasts_S64x1_S64x1x1) broadcasts_S64x1x1_S64x1x512 (ix3 o (0 : Fin 1) i))
    = Ideal.div (Routing.wexp (row lg o) i) (∑ i' : Fin 512, Routing.wexp (row lg o) i')
  rw [bc_top_apply, cast_col_apply, sumRow_apply, wexpV_apply]
  exact congrArg (Ideal.div _) (Finset.sum_congr rfl fun i' _ => wexpV_apply lg o i')

/-- Capsule `o`'s row of scores is `Routing.logit` of its tables. -/
theorem row_logitV : row (logitV P u) o = Routing.logit (tab P o) (vec u o) := funext (logitV_apply P u o)

theorem stepSum_apply (j : Fin 64) : stepSum P u (ix2 o j) = Routing.step (tab P o) (vec u o) j := by
  unfold stepSum
  rw [sumLast_apply]
  refine Finset.sum_congr rfl fun i _ => ?_
  show broadcastTo S64x64x512 (coefV (logitV P u)) broadcasts_S64x1x512_S64x64x512 (ix3 o j i) * P (ix3 o j i)
    = Routing.coef (Routing.logit (tab P o) (vec u o)) i * P (ix3 o j i)
  rw [bc_coef_apply, coefV_apply, row_logitV]

/-- ONE ROUND at capsule `o`: `Routing.step` of its priors table and output vector. -/
theorem stepV_apply (j : Fin 64) : stepV P u (ix3 o j (0 : Fin 1)) = Routing.step (tab P o) (vec u o) j := by
  unfold stepV
  rw [cast_mat_apply, stepSum_apply]

/-- As vectors of capsule `o`. -/
theorem vec_meanV : vec (meanV P) o = Routing.mean (tab P o) := funext (meanV_apply P o)
theorem vec_stepV : vec (stepV P u) o = Routing.step (tab P o) (vec u o) := funext (stepV_apply P u o)

/-- Three rounds from the mean at capsule `o`. -/
theorem route_apply (j : Fin 64) :
    stepV P (stepV P (stepV P (meanV P))) (ix3 o j (0 : Fin 1)) = Routing.route (tab P o) j := by
  rw [stepV_apply, vec_stepV, vec_stepV, vec_meanV]
  rfl

/-! ## The stored value -/

/-- Entry `(o, j)` of the stored value: capsule `o` of the tile routed over its priors
    `p i j' = ∑ l, P0[i, l] · P1[o, j', l]`. -/
theorem block_apply (P0 : Vec Ideal S1x512x64 .f32) (P1 : Vec Ideal S64x64x64 .f32) (o j : Fin 64) :
    k0_pay1 (k0_pay2 P0 P1) (k0_pay5 (k0_pay2 P0 P1) (k0_pay3 P0 P1) (k0_pay4 P0 P1)) (ix3 0 o j)
      = Cert.Routing.route (fun (i : Fin 512) (j' : Fin 64) =>
          ∑ l : Fin 64, (P0 (ix3 0 i l) : EReal) * (P1 (ix3 o j' l) : EReal)) j := by
  rw [block_eq, cast_block_apply, cast_back_apply, route_apply]
  refine congrArg (fun p => Cert.Routing.route p j) ?_
  funext i j'
  exact priors_apply P0 P1 o j' i

end Cert.KernelIdeal.RouteK

end
-- ==== Proof.RefRound.lean ====
/-
  The reference's result, read at an index, is three routing rounds from the mean.

  The reference forms all priors at once (batch × input capsule × capsule × output coordinate, then transposed to
  batch × capsule × input capsule × output coordinate) and routes every (batch, capsule) pair side by side with
  keep-dimension reductions and broadcasts.  Read entry by entry, its result is `Routing.route` of the priors table
  of the entry's batch entry and capsule.
-/
import proofs.«180689_j18056042512757_1_alg».proof.Proof.RefOps
import proofs.«180689_j18056042512757_1_alg».proof.Proof.Routing
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RouteR

open Idealize.ShloMosaic Idealize.ShloMosaic.ValueIdx Idealize.ShloMosaic.StableHlo Cert.ReferenceIdeal Cert.ReferenceIdeal.Gen

/-- The first input at launch (batch entry × input capsule × input coordinate), as an array of extended reals. -/
abbrev argX (V0 : Valuation τ sig (Elt Ideal)) : FVec Ideal S32x512x64 .f32 := V0 (Proc.devRef .tc main_arg0)
/-- The second input at launch (capsule × output coordinate × input coordinate), as an array of extended reals. -/
abbrev argW (V0 : Valuation τ sig (Elt Ideal)) : FVec Ideal S128x64x64 .f32 := V0 (Proc.devRef .tc main_arg1)

/-- The result buffer's term after the run, as a function of the buffers' contents at launch: the priors of the two
    inputs routed (the mean, three rounds, the last weighted sum's kept unit axis reshaped away). -/
def result (V0 : Valuation τ sig (Elt Ideal)) : FVec Ideal S32x128x64 .f32 :=
  routedV (priorsV (argX V0) (argW V0))

/-- Entry `(b, o, j)` of the result, over any names `X`, `W` for the two inputs' contents at launch: batch entry
    `b`'s capsule `o` routed over its priors `p i j' = ∑ l, x[b, i, l] · w[o, j', l]`. -/
theorem result_apply' (V0 : Valuation τ sig (Elt Ideal)) (X : FVec Ideal S32x512x64 .f32) (W : FVec Ideal S128x64x64 .f32)
    (hX : X = V0 (Proc.devRef .tc main_arg0)) (hW : W = V0 (Proc.devRef .tc main_arg1)) (b : Fin 32) (o : Fin 128) (j : Fin 64) :
    result V0 (ix3 b o j)
      = Cert.Routing.route (fun (i : Fin 512) (j' : Fin 64) => ∑ l : Fin 64, X (ix3 b i l) * W (ix3 o j' l)) j := by
  subst hX hW
  have hp : (fun (i : Fin 512) (j' : Fin 64) => priorsV (F := Ideal) (argX V0) (argW V0) (ix4 b o i j'))
      = fun (i : Fin 512) (j' : Fin 64) => ∑ l : Fin 64, argX V0 (ix3 b i l) * argW V0 (ix3 o j' l) :=
    funext fun i => funext fun j' => priorsV_apply _ _ b o i j'
  unfold result
  rw [routedV_apply, hp]

/-- Entry `(b, o, j)` of the result: batch entry `b`'s capsule `o` routed over its priors
    `p i j' = ∑ l, x[b, i, l] · w[o, j', l]`. -/
theorem result_apply (V0 : Valuation τ sig (Elt Ideal)) (b : Fin 32) (o : Fin 128) (j : Fin 64) :
    result V0 (ix3 b o j)
      = Cert.Routing.route (fun (i : Fin 512) (j' : Fin 64) => ∑ l : Fin 64, argX V0 (ix3 b i l) * argW V0 (ix3 o j' l)) j :=
  result_apply' V0 _ _ rfl rfl b o j

end Cert.ReferenceIdeal.RouteR

end
-- ==== Proof.lean ====
/-
  Capsule routing on the TPU against its jnp reference: the two idealized programs compute one function.

  Both programs form the priors `p[b, o, i, j] = ∑ l, x[b, i, l] · w[o, j, l]` and route them: the mean over the
  input capsules `i`, then three rounds of normalise – score – softmax over `i` – weighted sum (Proof/Routing.lean
  states one round over plain index functions).  The kernel does this one (batch entry, tile of sixty-four
  capsules) at a time, with the priors laid out capsule × coordinate × input capsule so that every reduction is a
  lane or a sublane sum; the reference does it for all (batch entry, capsule) pairs at once in the layout
  batch × capsule × input capsule × coordinate, with keep-dimension reductions and broadcasts.  Over the extended
  reals neither the layout nor the order of a finite sum matters, a change of float format is the identity, and
  the one place the two texts differ in a product is the order of its two factors.  So

    * the value the kernel's body stores, read at an entry, is `Routing.route` of that entry's priors
      (Proof/KernelRound.lean), hence the result array after the kernel's run is the whole-array function
      `routed` of the arguments, block by block (Proof/Blocks.lean);
    * the reference's run, evaluated stretch by stretch between the few buffers its rounds share
      (Proof/RefRun.lean over the operation list of Proof/RefRunOps.lean), leaves a result that, read at an entry,
      is `Routing.route` of the same priors (Proof/RefOps.lean, Proof/RefRound.lean).

  No step uses that the inputs are finite: commutativity and re-indexing of finite sums hold on all of the
  extended reals.  The three frames are the generated ones (the reference's is its run with the result dropped);
  the idealization rewrote nothing, so `preserves` is trivial.
-/
import proofs.«180689_j18056042512757_1_alg».proof.Defs
import proofs.«180689_j18056042512757_1_alg».proof.Proof.Gen.Kernel.Frame
import proofs.«180689_j18056042512757_1_alg».proof.Proof.Gen.KernelIdeal.Frame
import proofs.«180689_j18056042512757_1_alg».proof.Proof.RefRun
import proofs.«180689_j18056042512757_1_alg».proof.Proof.Gen.Pre_finite_inputs
import proofs.«180689_j18056042512757_1_alg».proof.Proof.Blocks
import proofs.«180689_j18056042512757_1_alg».proof.Proof.KernelRound
import proofs.«180689_j18056042512757_1_alg».proof.Proof.RefRound
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Stretches.run m ρ)

/-- The kernel's run leaves `routed` of the arguments; the reference's run leaves a term that reads, entry by
    entry, as the route of the same priors; the arguments agree. -/
theorem algebraic : Cert.algebraic_KernelIdeal_ReferenceIdeal := by
  intro m ρ m' ρ' _ hagree
  refine ⟨fun c => Cert.KernelIdeal.Whole.routed (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ Cert.KernelIdeal.RouteK.block_apply, ?_⟩
  refine (θ_run Cert.ReferenceIdeal.defs _ _).mono (fun _ h c => ⟨(h c).1.trans ?_, (h c).2⟩)
    (Cert.ReferenceIdeal.Stretches.run m' ρ')
  funext z
  obtain ⟨b, o, j, rfl⟩ : ∃ (b : Fin 32) (o : Fin 128) (j : Fin 64), z = ix3 b o j := ⟨z 0, z 1, z 2, eq_ix3 z⟩
  refine (Cert.ReferenceIdeal.RouteR.result_apply' (StableHlo.launchContents m' c) _ _ rfl rfl b o j).trans ?_
  show Cert.Routing.route _ j = Cert.Routing.route _ j
  congr 1
  funext i j'
  show _ = Cert.KernelIdeal.Whole.priors _ _ b o i j'
  unfold Cert.KernelIdeal.Whole.priors
  have e0 : StableHlo.launchContents m' c (Proc.devRef .tc Cert.ReferenceIdeal.main_arg0)
      = m ((c : Thread Cert.KernelIdeal.nD Cert.KernelIdeal.τ).loc Cert.KernelIdeal.main_arg0) := (hagree c).1
  have e1 : StableHlo.launchContents m' c (Proc.devRef .tc Cert.ReferenceIdeal.main_arg1)
      = m ((c : Thread Cert.KernelIdeal.nD Cert.KernelIdeal.τ).loc Cert.KernelIdeal.main_arg1) := (hagree c).2
  rw [e0, e1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
